-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x21x512x512 : Shape := ⟨4, ![16, 21, 512, 512]⟩
abbrev S16x1x512x512 : Shape := ⟨4, ![16, 1, 512, 512]⟩
abbrev S_ : Shape := ⟨0, ![]⟩

class Facts : Prop where
  bcast_S_S16x21x512x512 : S_.BroadcastsInDim S16x21x512x512 (![] : Fin 0 → Fin S16x21x512x512.rank)
  reducesTo_S16x21x512x512_S_d0_1_2_3 : S16x21x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x21x512x512 .f32) (main_arg1 : IVec S16x1x512x512 32) : IVec S_ 1 :=
  let main_v0 : FVec F S16x21x512x512 .f32 := Host.absf main_arg0
  let main_cst : FVec F S_ .f32 := constant S_ .f32 0x7F800000#32
  let main_v1 : FVec F S16x21x512x512 .f32 := broadcastInDim S16x21x512x512 ![] bcast_S_S16x21x512x512 main_cst
  let main_v2 : IVec S16x21x512x512 1 := cmpf .olt main_v0 main_v1
  let main_c : IVec S_ 1 := constantI S_ 1 1#1
  let main_v3 : IVec S_ 1 := (fun x v => Host.reduce IntOp.andi x v reducesTo_S16x21x512x512_S_d0_1_2_3 h_S_) main_v2 main_c
  let main_c_0 : IVec S_ 32 := constantI S_ 32 0#32
  let main_v4 : IVec S16x1x512x512 32 := broadcastInDim S16x1x512x512 ![] bcast_S_S16x1x512x512 main_c_0
  let main_v5 : IVec S16x1x512x512 1 := cmpi .sge main_arg1 main_v4
  let main_c_1 : IVec S_ 1 := constantI S_ 1 1#1
  let main_v6 : IVec S_ 1 := (fun x v => Host.reduce IntOp.andi x v reducesTo_S16x1x512x512_S_d0_1_2_3 h_S_) main_v5 main_c_1
  let main_v7 : IVec S_ 1 := andi main_v3 main_v6
  let main_c_2 : IVec S_ 32 := constantI S_ 32 21#32
  let main_v8 : IVec S16x1x512x512 32 := broadcastInDim S16x1x512x512 ![] bcast_S_S16x1x512x512 main_c_2
  let main_v9 : IVec S16x1x512x512 1 := cmpi .slt main_arg1 main_v8
  let main_c_3 : IVec S_ 1 := constantI S_ 1 1#1
  let main_v10 : IVec S_ 1 := (fun x v => Host.reduce IntOp.andi x v reducesTo_S16x1x512x512_S_d0_1_2_3 h_S_) main_v9 main_c_3
  let main_v11 : IVec S_ 1 := andi main_v7 main_v10
  main_v11
-- ==== Kernel.lean ====
abbrev S16x21x512x512 : Shape := ⟨4, ![16, 21, 512, 512]⟩
abbrev S16x1x512x512 : Shape := ⟨4, ![16, 1, 512, 512]⟩
abbrev S16x21 : Shape := ⟨2, ![16, 21]⟩
abbrev S8x21x64x128 : Shape := ⟨4, ![8, 21, 64, 128]⟩
abbrev S8x1x64x128 : Shape := ⟨4, ![8, 1, 64, 128]⟩
abbrev S8x21 : Shape := ⟨2, ![8, 21]⟩
abbrev S8x64x128 : Shape := ⟨3, ![8, 64, 128]⟩
abbrev S8x21x64 : Shape := ⟨3, ![8, 21, 64]⟩
abbrev S1x21x1x1 : Shape := ⟨4, ![1, 21, 1, 1]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S16x21x512x512, .f32⟩
  | .hbm, ⟨1, _⟩ => ⟨S16x1x512x512, .i32⟩
  | .hbm, ⟨2, _⟩ => ⟨S16x21, .f32⟩
  | .hbm, ⟨3, _⟩ => ⟨S16x21, .f32⟩
  | .hbm, ⟨4, _⟩ => ⟨S_, .f32⟩
  | .hbm, ⟨5, _⟩ => ⟨S16x21, .f32⟩
  | .hbm, ⟨6, _⟩ => ⟨S16x21, .f32⟩
  | .hbm, ⟨7, _⟩ => ⟨S_, .f32⟩
  | .hbm, ⟨8, _⟩ => ⟨S16x21, .f32⟩
  | .hbm, ⟨9, _⟩ => ⟨S16x21, .f32⟩
  | .hbm, ⟨10, _⟩ => ⟨S16x21, .f32⟩
  | .hbm, ⟨11, _⟩ => ⟨S16x21, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8x21x64x128, .f32⟩
  | .local _ .vmem, ⟨1, _⟩ => ⟨S8x21x64x128, .f32⟩
  | .local _ .vmem, ⟨2, _⟩ => ⟨S8x1x64x128, .i32⟩
  | .local _ .vmem, ⟨3, _⟩ => ⟨S8x1x64x128, .i32⟩
  | .local _ .vmem, ⟨4, _⟩ => ⟨S8x21, .f32⟩
  | .local _ .vmem, ⟨5, _⟩ => ⟨S8x21, .f32⟩
  | .local _ .vmem, ⟨6, _⟩ => ⟨S8x21, .f32⟩
  | .local _ .vmem, ⟨7, _⟩ => ⟨S8x21, .f32⟩
  | _, _ => ⟨S16x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x21x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S8x21_S8x21_0_0 : ∀ a, (![0, 0] : Fin 2 → Nat) a + S8x21.size a ≤ S8x21.size a
  h_S8x21 : 0 < S8x21.numel
  inb_S8x21x64x128_S8x21x64x128_0_0_0_0 : ∀ a, (![0, 0, 0, 0] : Fin 4 → Nat) a + S8x21x64x128.size a ≤ S8x21x64x128.size a
  h_S8x21x64x128 : 0 < S8x21x64x128.numel
  reduces_S8x21x64x128_S8x64x128 : S8x21x64x128.Reduces [1] S8x64x128
  shapeCasts_S8x64x128_S8x1x64x128 : S8x64x128.ShapeCasts S8x1x64x128
  broadcasts_S8x1x64x128_S8x21x64x128 : S8x1x64x128.Broadcasts S8x21x64x128
  reduces_S8x21x64x128_S8x21x64 : S8x21x64x128.Reduces [3] S8x21x64
  reduces_S8x21x64_S8x21 : S8x21x64.Reduces [2] S8x21
  shapeCasts_S8x21_S8x21 : S8x21.ShapeCasts S8x21
  inb_S8x1x64x128_S8x1x64x128_0_0_0_0 : ∀ a, (![0, 0, 0, 0] : Fin 4 → Nat) a + S8x1x64x128.size a ≤ S8x1x64x128.size a
  h_S8x1x64x128 : 0 < S8x1x64x128.numel
  iota_S1x21x1x1_d1_w32 : S1x21x1x1.Iotas .tc 32 [1]
  broadcasts_S1x21x1x1_S8x21x64x128 : S1x21x1x1.Broadcasts S8x21x64x128
  bcast_S_S16x21 : S_.BroadcastsInDim S16x21 (![] : Fin 0 → Fin S16x21.rank)
  reducesTo_S16x21_S_d0_1 : S16x21.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x21x64x128.size a ≤ S16x21x512x512.size a
  hwx0_0 : ∀ i : grid0.Coords, EltTy.bits .f32 = 32 ∨ (Rect.block (s := S16x21x512x512) S8x21x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x64x128.size a ≤ S16x1x512x512.size a
  hwx0_1 : ∀ i : grid0.Coords, EltTy.bits .i32 = 32 ∨ (Rect.block (s := S16x1x512x512) S8x1x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x21.size a ≤ S16x21.size a
  hwx0_2 : ∀ i : grid0.Coords, EltTy.bits .f32 = 32 ∨ (Rect.block (s := S16x21) S8x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x21.size a ≤ S16x21.size a
  hwx0_3 : ∀ i : grid0.Coords, EltTy.bits .f32 = 32 ∨ (Rect.block (s := S16x21) S8x21.size (cc0_transform_3 i) (hinb0_3 i)).WholeWords (EltTy.packing .f32)

variable [Facts₀]

abbrev win0_0 : Pipeline.Window sig grid0 :=
  Pipeline.Window.ofSpec (Memref.whole main_arg0) S8x21x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x21.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x21x512x512 : Shape := ⟨4, ![16, 21, 512, 512]⟩
abbrev S16x1x512x512 : Shape := ⟨4, ![16, 1, 512, 512]⟩
abbrev S_ : Shape := ⟨0, ![]⟩
abbrev S16x512x512 : Shape := ⟨3, ![16, 512, 512]⟩
abbrev S16x21 : Shape := ⟨2, ![16, 21]⟩
abbrev S16x262144 : Shape := ⟨2, ![16, 262144]⟩
abbrev S16 : Shape := ⟨1, ![16]⟩
abbrev S16x1 : Shape := ⟨2, ![16, 1]⟩
abbrev S16x262144x1 : Shape := ⟨3, ![16, 262144, 1]⟩
abbrev S16x262144x2 : Shape := ⟨3, ![16, 262144, 2]⟩

abbrev nBuf : Space → Nat
  | .hbm => 56
  | .vmem => 0
  | .smem => 0
  | _ => 0

abbrev bufTy : (tb : Table) → Fin (tcTables nBuf tb) → BufTy
  | .hbm, ⟨0, _⟩ => ⟨S16x21x512x512, .f32⟩
  | .hbm, ⟨1, _⟩ => ⟨S16x1x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x21x512x512, .f32⟩
  | .hbm, ⟨9, _⟩ => ⟨S16x21x512x512, .f32⟩
  | .hbm, ⟨10, _⟩ => ⟨S16x21x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x21x512x512, .f32⟩
  | .hbm, ⟨15, _⟩ => ⟨S16x21x512x512, .f32⟩
  | .hbm, ⟨16, _⟩ => ⟨S_, .f32⟩
  | .hbm, ⟨17, _⟩ => ⟨S16x21, .f32⟩
  | .hbm, ⟨18, _⟩ => ⟨S_, .f32⟩
  | .hbm, ⟨19, _⟩ => ⟨S16x21, .f32⟩
  | .hbm, ⟨20, _⟩ => ⟨S16x21, .f32⟩
  | .hbm, ⟨21, _⟩ => ⟨S16x262144, .i32⟩
  | .hbm, ⟨22, _⟩ => ⟨S16, .i32⟩
  | .hbm, ⟨23, _⟩ => ⟨S16x1, .i32⟩
  | .hbm, ⟨24, _⟩ => ⟨S_, .f32⟩
  | .hbm, ⟨25, _⟩ => ⟨S16x21, .f32⟩
  | .hbm, ⟨26, _⟩ => ⟨S_, .i32⟩
  | .hbm, ⟨27, _⟩ => ⟨S16x1, .i32⟩
  | .hbm, ⟨28, _⟩ => ⟨S16x1, .i1⟩
  | .hbm, ⟨29, _⟩ => ⟨S_, .i32⟩
  | .hbm, ⟨30, _⟩ => ⟨S16x1, .i32⟩
  | .hbm, ⟨31, _⟩ => ⟨S16x1, .i32⟩
  | .hbm, ⟨32, _⟩ => ⟨S16x1, .i32⟩
  | .hbm, ⟨33, _⟩ => ⟨S_, .i32⟩
  | .hbm, ⟨34, _⟩ => ⟨S16x262144, .i32⟩
  | .hbm, ⟨35, _⟩ => ⟨S16x262144, .i1⟩
  | .hbm, ⟨36, _⟩ => ⟨S_, .i32⟩
  | .hbm, ⟨37, _⟩ => ⟨S16x262144, .i32⟩
  | .hbm, ⟨38, _⟩ => ⟨S16x262144, .i32⟩
  | .hbm, ⟨39, _⟩ => ⟨S16x262144, .i32⟩
  | .hbm, ⟨40, _⟩ => ⟨S16x262144, .i32⟩
  | .hbm, ⟨41, _⟩ => ⟨S16x262144x1, .i32⟩
  | .hbm, ⟨42, _⟩ => ⟨S16x262144x1, .i32⟩
  | .hbm, ⟨43, _⟩ => ⟨S16x262144x2, .i32⟩
  | .hbm, ⟨44, _⟩ => ⟨S_, .f32⟩
  | .hbm, ⟨45, _⟩ => ⟨S16x262144, .f32⟩
  | .hbm, ⟨46, _⟩ => ⟨S16x21, .f32⟩
  | .hbm, ⟨47, _⟩ => ⟨S_, .f32⟩
  | .hbm, ⟨48, _⟩ => ⟨S16x21, .f32⟩
  | .hbm, ⟨49, _⟩ => ⟨S16x21, .f32⟩
  | .hbm, ⟨50, _⟩ => ⟨S16x21, .f32⟩
  | .hbm, ⟨51, _⟩ => ⟨S16x21, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  reducesTo_S16x21x512x512_S16x512x512_d1 : S16x21x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x21x512x512_0_1_2_3 : S16x1x512x512.BroadcastsInDim S16x21x512x512 (![0, 1, 2, 3] : Fin 4 → Fin S16x21x512x512.rank)
  reducesTo_S16x21x512x512_S16x21_d2_3 : S16x21x512x512.ReducesTo [2, 3] S16x21
  bcast_S_S16x21 : S_.BroadcastsInDim S16x21 (![] : Fin 0 → Fin S16x21.rank)
  shapeCasts_S16x1x512x512_S16x262144 : S16x1x512x512.ShapeCasts S16x262144
  bcast_S16_S16x1_0 : S16.BroadcastsInDim S16x1 (![0] : Fin 1 → Fin S16x1.rank)
  bcast_S_S16x1 : S_.BroadcastsInDim S16x1 (![] : Fin 0 → Fin S16x1.rank)
  bcast_S_S16x262144 : S_.BroadcastsInDim S16x262144 (![] : Fin 0 → Fin S16x262144.rank)
  bcast_S16x1_S16x262144_0_1 : S16x1.BroadcastsInDim S16x262144 (![0, 1] : Fin 2 → Fin S16x262144.rank)
  bcast_S16x262144_S16x262144x1_0_1 : S16x262144.BroadcastsInDim S16x262144x1 (![0, 1] : Fin 2 → Fin S16x262144x1.rank)
  concatenates_S16x262144x1_S16x262144x1_S16x262144x2_d2 : Shape.Concatenates [S16x262144x1, S16x262144x1] S16x262144x2 2
  reducesTo_S16x21_S_d0_1 : S16x21.ReducesTo [0, 1] S_
  scatter_S16x21_S16x262144x2_S16x262144_n_01_01_2_wf : ScatterDims.WF S16x21 S16x262144x2 S16x262144 [] [0, 1] [0, 1] 2

variable [Facts₀]

def scatter_S16x21_S16x262144x2_S16x262144_n_01_01_2 : ScatterDims S16x21 S16x262144x2 S16x262144 where
  updateWindowDims := []
  insertedWindowDims := [0, 1]
  scatterDimsToOperandDims := [0, 1]
  indexVectorDim := 2
  wf := scatter_S16x21_S16x262144x2_S16x262144_n_01_01_2_wf

class Facts : Prop extends Facts₀ where

variable [Facts]
-- ==== Proof.Pieces.lean ====
/-
  What one grid point leaves in the two accumulators' staging buffers, as values.

  At a point that opens a batch block (tile (0, 0)) the body first stores zeros, then reads them back and stores
  zeros + (the tile's contribution); at every other point it reads what the point before left and stores that
  + (the tile's contribution). The contributions are the body's pure terms: `k0_pay4` for the softmax mass,
  `k0_pay1 ∘ k0_pay5` for the label count.
-/
import proofs.«410221_j10393820857111_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.HistLoss.Kernel

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- An accumulating point: the mass accumulator holds its old contents plus the tile's softmass. -/
theorem mass_step (c : Dev nD) (i : grid0.Coords) (a3 : Memref sig .tc .vmem S8x21x64x128 .f32) (h3 : a3.IsWhole) (a4 : Memref sig .tc .vmem S8x1x64x128 .i32) (h4 : a4.IsWhole) (a5 : Memref sig .tc .vmem S8x21 .f32) (h5 : a5.IsWhole) (a6 : Memref sig .tc .vmem S8x21 .f32) (h6 : a6.IsWhole) (hc : ¬cond0_0 i)
    (x0 : Vec F S8x21x64x128 .f32) (x1 : Vec F S8x1x64x128 .i32) (xo2 xo3 : Vec F S8x21 .f32) :
    out0_B_2 c i a3 h3 a4 h4 a5 h5 a6 h6 hc x0 x1 xo2 xo3 = k0_pay4 x0 xo2 := by
  unfold out0_B_2
  rw [View.read_writes_eq_canon _ _ _ (cover0_B_2 c i a3 h3 a4 h4 a5 h5 a6 h6 hc x0 x1 xo2 xo3)]
  unfold kernelRun0_B
  dsimp only
  sl_unfold_words
  rw [View.canon_unit_zero hz2]
  simp only [View.readAt_eq_ld, h3.read_unread, h5.read_unread, View.ld_unit_zero (S := S8x21x64x128) hz4,
    View.ld_unit_zero (S := S8x21) hz2]

/-- An accumulating point: the count accumulator holds its old contents plus the tile's count. -/
theorem count_step (c : Dev nD) (i : grid0.Coords) (a3 : Memref sig .tc .vmem S8x21x64x128 .f32) (h3 : a3.IsWhole) (a4 : Memref sig .tc .vmem S8x1x64x128 .i32) (h4 : a4.IsWhole) (a5 : Memref sig .tc .vmem S8x21 .f32) (h5 : a5.IsWhole) (a6 : Memref sig .tc .vmem S8x21 .f32) (h6 : a6.IsWhole) (hc : ¬cond0_0 i)
    (x0 : Vec F S8x21x64x128 .f32) (x1 : Vec F S8x1x64x128 .i32) (xo2 xo3 : Vec F S8x21 .f32) :
    out0_B_3 c i a3 h3 a4 h4 a5 h5 a6 h6 hc x0 x1 xo2 xo3 = k0_pay1 (k0_pay5 x1) xo3 := by
  unfold out0_B_3
  rw [View.read_writes_eq_canon _ _ _ (cover0_B_3 c i a3 h3 a4 h4 a5 h5 a6 h6 hc x0 x1 xo2 xo3)]
  unfold kernelRun0_B
  dsimp only
  sl_unfold_words
  rw [View.canon_unit_zero hz2]
  simp only [View.readAt_eq_ld, h4.read_unread, h6.read_unread, View.ld_unit_zero (S := S8x1x64x128) hz4,
    View.ld_unit_zero (S := S8x21) hz2]

/-- An opening point: the mass accumulator holds zeros plus the tile's softmass. -/
theorem mass_open (c : Dev nD) (i : grid0.Coords) (a3 : Memref sig .tc .vmem S8x21x64x128 .f32) (h3 : a3.IsWhole) (a4 : Memref sig .tc .vmem S8x1x64x128 .i32) (h4 : a4.IsWhole) (a5 : Memref sig .tc .vmem S8x21 .f32) (h5 : a5.IsWhole) (a6 : Memref sig .tc .vmem S8x21 .f32) (h6 : a6.IsWhole) (hc : cond0_0 i)
    (x0 : Vec F S8x21x64x128 .f32) (x1 : Vec F S8x1x64x128 .i32) :
    out0_A_2 c i a3 h3 a4 h4 a5 h5 a6 h6 hc x0 x1 = k0_pay4 x0 (k0_pay2 (F := F)) := by
  unfold out0_A_2
  rw [View.read_writes_eq_canon _ _ _ (cover0_A_2 c i a3 h3 a4 h4 a5 h5 a6 h6 hc x0 x1)]
  unfold kernelRun0_A
  dsimp only
  sl_unfold_words
  rw [View.canon_cons_unit_zero (S := S8x21) hz2, View.readCov_unit_zero (S := S8x21) _ hz2]
  simp only [View.readAt_eq_ld, h3.read_unread, View.ld_unit_zero (S := S8x21x64x128) hz4,
    View.ld_unit_zero (S := S8x21) hz2]

/-- An opening point: the count accumulator holds zeros plus the tile's count. -/
theorem count_open (c : Dev nD) (i : grid0.Coords) (a3 : Memref sig .tc .vmem S8x21x64x128 .f32) (h3 : a3.IsWhole) (a4 : Memref sig .tc .vmem S8x1x64x128 .i32) (h4 : a4.IsWhole) (a5 : Memref sig .tc .vmem S8x21 .f32) (h5 : a5.IsWhole) (a6 : Memref sig .tc .vmem S8x21 .f32) (h6 : a6.IsWhole) (hc : cond0_0 i)
    (x0 : Vec F S8x21x64x128 .f32) (x1 : Vec F S8x1x64x128 .i32) :
    out0_A_3 c i a3 h3 a4 h4 a5 h5 a6 h6 hc x0 x1 = k0_pay1 (k0_pay5 x1) (k0_pay3 (F := F)) := by
  unfold out0_A_3
  rw [View.read_writes_eq_canon _ _ _ (cover0_A_3 c i a3 h3 a4 h4 a5 h5 a6 h6 hc x0 x1)]
  unfold kernelRun0_A
  dsimp only
  sl_unfold_words
  rw [View.canon_cons_unit_zero (S := S8x21) hz2, View.readCov_unit_zero (S := S8x21) _ hz2]
  simp only [View.readAt_eq_ld, h4.read_unread, View.ld_unit_zero (S := S8x1x64x128) hz4,
    View.ld_unit_zero (S := S8x21) hz2]

end Cert.HistLoss.Kernel

end
-- ==== Proof.TileTerms.lean ====
/-
  What one grid point adds to the two accumulators, read at (b, c) of the [8, 21] block: the tile's softmax mass
  Σ_{h<64, w<128} e^{x b c h w} · (1 / Σ_{c'} e^{x b c' h w}) and the tile's indicator count Σ_{h,w} [t b 0 h w = c].
-/
import proofs.«410221_j10393820857111_3_alg».proof.Proof.Gen.KernelIdeal.Skeleton
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout
import Idealize.ShloMosaic.Lib.StableHlo.Predicate

noncomputable section

namespace Cert.HistLoss

open Idealize.ShloMosaic Idealize.ShloMosaic.ValueIdx Cert.KernelIdeal Cert.KernelIdeal.Gen

/-! ## One lemma per operation that is not pointwise, at coordinates -/

/-- The channel sum read at (b, h, w): the sum over the 21 channels. -/
theorem chanSum_apply (e : FVec Ideal S8x21x64x128 .f32) (z : BitVec 32)
    (hφ : FKind.Formats .f32) (hz : z = FKind.add.neutral .f32 hφ) (b : Fin 8) (h : Fin 64) (w : Fin 128) :
    multiReduction .add [1] S8x64x128 e z reduces_S8x21x64x128_S8x64x128 hφ hz (ix3 b h w)
      = ∑ c' : Fin 21, e (ix4 b c' h w) := by
  refine (Ideal.multiReduction_add_single e z reduces_S8x21x64x128_S8x64x128 hφ hz (ix3 b h w)).trans ?_
  refine Finset.sum_congr rfl fun k _ => congrArg e ?_
  funext a
  match a with
  | ⟨0, _⟩ => rfl
  | ⟨1, _⟩ => rfl
  | ⟨2, _⟩ => rfl
  | ⟨3, _⟩ => rfl

/-- The sum over the 128 lanes read at (b, c, h). -/
theorem laneSum_apply (e : FVec Ideal S8x21x64x128 .f32) (z : BitVec 32)
    (hφ : FKind.Formats .f32) (hz : z = FKind.add.neutral .f32 hφ) (b : Fin 8) (c : Fin 21) (h : Fin 64) :
    multiReduction .add [3] S8x21x64 e z reduces_S8x21x64x128_S8x21x64 hφ hz (ix3 b c h)
      = ∑ w : Fin 128, e (ix4 b c h w) := by
  refine (Ideal.multiReduction_add_single e z reduces_S8x21x64x128_S8x21x64 hφ hz (ix3 b c h)).trans ?_
  refine Finset.sum_congr rfl fun k _ => congrArg e ?_
  funext a
  match a with
  | ⟨0, _⟩ => rfl
  | ⟨1, _⟩ => rfl
  | ⟨2, _⟩ => rfl
  | ⟨3, _⟩ => rfl

/-- The sum over the 64 sublanes read at (b, c). -/
theorem rowSum_apply (e : FVec Ideal S8x21x64 .f32) (z : BitVec 32)
    (hφ : FKind.Formats .f32) (hz : z = FKind.add.neutral .f32 hφ) (b : Fin 8) (c : Fin 21) :
    multiReduction .add [2] S8x21 e z reduces_S8x21x64_S8x21 hφ hz (ix2 b c)
      = ∑ h : Fin 64, e (ix3 b c h) := by
  refine (Ideal.multiReduction_add_single e z reduces_S8x21x64_S8x21 hφ hz (ix2 b c)).trans ?_
  refine Finset.sum_congr rfl fun k _ => congrArg e ?_
  funext a
  match a with
  | ⟨0, _⟩ => rfl
  | ⟨1, _⟩ => rfl
  | ⟨2, _⟩ => rfl

/-- The two lane sums together read at (b, c): the double sum over the 64 × 128 tile. -/
theorem tileSum_apply (e : FVec Ideal S8x21x64x128 .f32) (z z' : BitVec 32)
    (hφ hφ' : FKind.Formats .f32) (hz : z = FKind.add.neutral .f32 hφ) (hz' : z' = FKind.add.neutral .f32 hφ')
    (b : Fin 8) (c : Fin 21) :
    multiReduction .add [2] S8x21
        (multiReduction .add [3] S8x21x64 e z reduces_S8x21x64x128_S8x21x64 hφ hz) z' reduces_S8x21x64_S8x21 hφ' hz' (ix2 b c)
      = ∑ h : Fin 64, ∑ w : Fin 128, e (ix4 b c h w) := by
  refine (rowSum_apply _ z' hφ' hz' b c).trans ?_
  exact Finset.sum_congr rfl fun h _ => laneSum_apply e z hφ hz b c h

/-- The keepdims shape cast [8,64,128] → [8,1,64,128] read at (b, 0, h, w). -/
theorem shapeCast_keep1_apply {α : Type} (v : S8x64x128.Idx → α) (hc : S8x64x128.ShapeCasts S8x1x64x128)
    (b : Fin 8) (u : Fin 1) (h : Fin 64) (w : Fin 128) :
    shapeCast S8x1x64x128 v hc (ix4 b u h w) = v (ix3 b h w) := by
  refine shapeCast_apply v hc (ix4 b u h w) (ix3 b h w) ?_
  rw [Shape.rowMajor_val_three, Shape.rowMajor_val_four]
  have hu : u.val = 0 := by omega
  show (b.val * 64 + h.val) * 128 + w.val = ((b.val * 1 + u.val) * 64 + h.val) * 128 + w.val
  rw [hu]; omega

/-- The broadcast [8,1,64,128] → [8,21,64,128] read at (b, c, h, w): the operand at (b, 0, h, w). -/
theorem broadcastChan_apply {α : Type} (v : S8x1x64x128.Idx → α) (hb : S8x1x64x128.Broadcasts S8x21x64x128)
    (b : Fin 8) (c : Fin 21) (h : Fin 64) (w : Fin 128) :
    broadcastTo S8x21x64x128 v hb (ix4 b c h w) = v (ix4 b 0 h w) := by
  refine broadcastTo_apply v hb (ix4 b c h w) (ix4 b 0 h w) fun a => ?_
  match a with
  | ⟨0, _⟩ => rfl
  | ⟨1, _⟩ => rfl
  | ⟨2, _⟩ => rfl
  | ⟨3, _⟩ => rfl

/-- The broadcast [1,21,1,1] → [8,21,64,128] read at (b, c, h, w): the operand at (0, c, 0, 0). -/
theorem broadcastClass_apply {α : Type} (v : S1x21x1x1.Idx → α) (hb : S1x21x1x1.Broadcasts S8x21x64x128)
    (b : Fin 8) (c : Fin 21) (h : Fin 64) (w : Fin 128) :
    broadcastTo S8x21x64x128 v hb (ix4 b c h w) = v (ix4 0 c 0 0) := by
  refine broadcastTo_apply v hb (ix4 b c h w) (ix4 0 c 0 0) fun a => ?_
  match a with
  | ⟨0, _⟩ => rfl
  | ⟨1, _⟩ => rfl
  | ⟨2, _⟩ => rfl
  | ⟨3, _⟩ => rfl

/-- The class iota over [1,21,1,1] read at (0, c, 0, 0) is the word c. -/
theorem iotaClass_apply (hi : S1x21x1x1.Iotas .tc 32 [1]) (c : Fin 21) :
    iota .tc S1x21x1x1 32 [1] hi (ix4 0 c 0 0) = BitVec.ofNat 32 c.val :=
  iota_single_apply .tc S1x21x1x1 32 1 hi (ix4 0 c 0 0)

/-- A select on an equality test of two words is the if-then-else on their equality. -/
theorem select_cmpi_eq {α : Type} {n : Nat} (a b : BitVec n) (x y : α) :
    Scalar.select (IntOp.cmpi .eq a b) x y = if a = b then x else y := by
  by_cases hab : a = b
  · rw [if_pos hab, StableHlo.Predicate.cmpi_eq_iff.mpr hab]; exact select_one x y
  · rw [if_neg hab, eq_zero_of_ne_one (fun h1 => hab (StableHlo.Predicate.cmpi_eq_iff.mp h1))]; exact select_zero x y

/-! ## The four payloads at an index -/

/-- The probability accumulator's new contents: the old contents plus the tile's softmax mass. -/
theorem probTile_apply (x0 : Vec Ideal S8x21x64x128 .f32) (acc : Vec Ideal S8x21 .f32) (b : Fin 8) (c : Fin 21) :
    k0_pay4 (F := Ideal) x0 acc (ix2 b c)
      = acc (ix2 b c) + ∑ h : Fin 64, ∑ w : Fin 128,
          Ideal.exp (x0 (ix4 b c h w)) * Ideal.div 1 (∑ c' : Fin 21, Ideal.exp (x0 (ix4 b c' h w))) := by
  unfold k0_pay4
  -- the sum of the accumulator, cast to its own shape, and the tile's value
  refine (addf_apply _ _ (ix2 b c)).trans ?_
  refine congrArg₂ (· + ·) (congrFun (shapeCast_self acc shapeCasts_S8x21_S8x21) (ix2 b c)) ?_
  -- the two lane sums
  refine (tileSum_apply _ _ _ _ _ _ _ b c).trans ?_
  refine Finset.sum_congr rfl fun h _ => Finset.sum_congr rfl fun w _ => ?_
  -- the product e^x · (1 / channel sum) at (b, c, h, w)
  refine (mulf_apply _ _ (ix4 b c h w)).trans ?_
  refine congrArg (Ideal.exp (x0 (ix4 b c h w)) * ·) ?_
  refine (broadcastChan_apply _ _ b c h w).trans ?_
  refine (divf_apply _ _ (ix4 b 0 h w)).trans ?_
  refine congrArg₂ Ideal.div Ideal.ofBits_one_f32 ?_
  refine (shapeCast_keep1_apply _ _ b 0 h w).trans ?_
  exact chanSum_apply _ _ _ _ b h w

/-- The count accumulator's new contents: the old contents plus the tile's number of pixels labelled c. -/
theorem countTile_apply (x1 : Vec Ideal S8x1x64x128 .i32) (acc : Vec Ideal S8x21 .f32) (b : Fin 8) (c : Fin 21) :
    k0_pay1 (F := Ideal) (k0_pay5 (F := Ideal) x1) acc (ix2 b c)
      = acc (ix2 b c) + ∑ h : Fin 64, ∑ w : Fin 128,
          if x1 (ix4 b 0 h w) = BitVec.ofNat 32 c.val then (1 : EReal) else 0 := by
  unfold k0_pay1 k0_pay5
  refine (addf_apply _ _ (ix2 b c)).trans ?_
  refine congrArg₂ (· + ·) (congrFun (shapeCast_self acc shapeCasts_S8x21_S8x21) (ix2 b c)) ?_
  refine (tileSum_apply _ _ _ _ _ _ _ b c).trans ?_
  refine Finset.sum_congr rfl fun h _ => Finset.sum_congr rfl fun w _ => ?_
  -- the one-hot select at (b, c, h, w)
  refine (select_apply _ _ _ (ix4 b c h w)).trans ?_
  refine (select_cmpi_eq _ _ _ _).trans ?_
  rw [broadcastChan_apply, broadcastClass_apply, iotaClass_apply]
  exact congrArg₂ (fun p q : EReal => if x1 (ix4 b 0 h w) = BitVec.ofNat 32 c.val then p else q)
    Ideal.ofBits_one_f32 Ideal.ofBits_zero_f32

/-- The two resets write zero everywhere. -/
theorem reset2_apply (j : S8x21.Idx) : k0_pay2 (F := Ideal) j = 0 := by
  exact Ideal.ofBits_zero_f32
theorem reset3_apply (j : S8x21.Idx) : k0_pay3 (F := Ideal) j = 0 := by
  exact Ideal.ofBits_zero_f32

end Cert.HistLoss

end
-- ==== Proof.TileSum.lean ====
/-
  The image is tiled by 8 × 4 tiles of 64 × 128 pixels, visited row by row: summing over the 32 tiles in that order, and
  inside each over its pixels, is summing over the 512 × 512 image.
-/
import Idealize.ShloMosaic.PureOps.Ideal

noncomputable section

namespace Cert.HistLoss

/-- One axis: an index below a · n is uniquely p · n + q with p < a and q < n, so a sum over the a · n indices is the
    sum over the a blocks of the sum inside each block of length n. -/
theorem sum_fin_mul {M : Type} [AddCommMonoid M] (a n : ℕ) (g : ℕ → M) :
    ∑ i : Fin (a * n), g i.val = ∑ p : Fin a, ∑ q : Fin n, g (p.val * n + q.val) := by
  -- reindex along the bijection (p, q) ↦ q + n · p from pairs to indices below a · n, then split the pair sum
  rw [← Equiv.sum_comp finProdFinEquiv (fun i : Fin (a * n) => g i.val), Fintype.sum_prod_type]
  refine Finset.sum_congr rfl (fun p _ => Finset.sum_congr rfl (fun q _ => ?_))
  rw [finProdFinEquiv_apply_val, Nat.add_comm, Nat.mul_comm]

/-- Tile s (s < 32) has its rows from (s / 4) · 64 and its columns from (s % 4) · 128. -/
theorem sum_tiles {M : Type} [AddCommMonoid M] (f : ℕ → ℕ → M) :
    ∑ s ∈ Finset.range 32, ∑ h : Fin 64, ∑ w : Fin 128, f (s / 4 * 64 + h.val) (s % 4 * 128 + w.val)
      = ∑ h : Fin 512, ∑ w : Fin 512, f h.val w.val := by
  -- rows: 512 = 8 · 64
  have hR : ∀ g : ℕ → M, ∑ h : Fin 512, g h.val = ∑ p : Fin 8, ∑ q : Fin 64, g (p.val * 64 + q.val) :=
    fun g => sum_fin_mul 8 64 g
  -- columns: 512 = 4 · 128
  have hC : ∀ g : ℕ → M, ∑ w : Fin 512, g w.val = ∑ p : Fin 4, ∑ q : Fin 128, g (p.val * 128 + q.val) :=
    fun g => sum_fin_mul 4 128 g
  -- tiles: 32 = 8 · 4, tile s = p · 4 + q
  have hS : ∀ g : ℕ → M, ∑ s ∈ Finset.range 32, g s = ∑ p : Fin 8, ∑ q : Fin 4, g (p.val * 4 + q.val) :=
    fun g => by rw [Finset.sum_range]; exact sum_fin_mul 8 4 g
  rw [hS (fun s => ∑ h : Fin 64, ∑ w : Fin 128, f (s / 4 * 64 + h.val) (s % 4 * 128 + w.val)),
    hR (fun h => ∑ w : Fin 512, f h w.val)]
  -- same row block p on both sides; bring the row-in-block sum outside the column-block sum
  refine Finset.sum_congr rfl (fun p _ => ?_)
  rw [Finset.sum_comm]
  refine Finset.sum_congr rfl (fun h _ => ?_)
  rw [hC (fun w => f (p.val * 64 + h.val) w)]
  refine Finset.sum_congr rfl (fun q _ => ?_)
  -- (p · 4 + q) / 4 = p and (p · 4 + q) % 4 = q since q < 4
  have h1 : (p.val * 4 + q.val) / 4 = p.val := by have := q.isLt; omega
  have h2 : (p.val * 4 + q.val) % 4 = q.val := by have := q.isLt; omega
  simp only [h1, h2]

end Cert.HistLoss

end
-- ==== Proof.Spec.lean ====
/-
  What both programs compute, as two functions of the argument arrays over the extended reals.

  For logits `x : [16, 21, 512, 512]` and labels `t : [16, 1, 512, 512]`:
  * `probSum x b c`   = Σ_{h,w} e^{x b c h w} · (1 / Σ_{c'} e^{x b c' h w}), the softmax probability of class `c`
    summed over the image of batch entry `b`;
  * `labelCount t b c` = the number of pixels of batch entry `b` whose label is `c`, as Σ_{h,w} [t b 0 h w = c].
  The loss is (Σ_{b,c} |labelCount/262144 − probSum/262144|) / 16; both programs end with that same chain of host
  operations, applied to these two arrays.
-/
import Idealize.ShloMosaic.PureOps.Ideal
import Idealize.ShloMosaic.Lib.ValueIdx

noncomputable section

namespace Cert.HistLoss

open Idealize.ShloMosaic Idealize.ShloMosaic.ValueIdx

/-- The logits' shape, the labels' shape, and the shape of the per-(batch, class) statistics. -/
abbrev SP : Shape := ⟨4, ![16, 21, 512, 512]⟩
abbrev ST : Shape := ⟨4, ![16, 1, 512, 512]⟩
abbrev SO : Shape := ⟨2, ![16, 21]⟩

/-- Softmax mass of class `c` over the image of batch entry `b`: each pixel contributes e^{x_c} times the reciprocal of
    the pixel's channel sum Σ_{c'} e^{x_{c'}}. -/
def probSum (x : SP.Idx → EReal) (b : Fin 16) (c : Fin 21) : EReal :=
  ∑ h : Fin 512, ∑ w : Fin 512,
    Ideal.exp (x (ix4 b c h w)) * Ideal.div 1 (∑ c' : Fin 21, Ideal.exp (x (ix4 b c' h w)))

/-- Number of pixels of batch entry `b` labelled `c`, as a sum of indicators. -/
def labelCount (t : ST.Idx → BitVec 32) (b : Fin 16) (c : Fin 21) : EReal :=
  ∑ h : Fin 512, ∑ w : Fin 512, if t (ix4 b 0 h w) = BitVec.ofNat 32 c.val then (1 : EReal) else 0

/-- The two statistics as arrays over [16, 21]. -/
def probArr (x : SP.Idx → EReal) : SO.Idx → EReal := fun j => probSum x (j 0) (j 1)
def countArr (t : ST.Idx → BitVec 32) : SO.Idx → EReal := fun j => labelCount t (j 0) (j 1)

theorem probArr_ix2 (x : SP.Idx → EReal) (b : Fin 16) (c : Fin 21) : probArr x (ix2 b c) = probSum x b c := rfl
theorem countArr_ix2 (t : ST.Idx → BitVec 32) (b : Fin 16) (c : Fin 21) : countArr t (ix2 b c) = labelCount t b c := rfl

end Cert.HistLoss

end
-- ==== Proof.Accumulate.lean ====
/-
  The two accumulators, point by point, and the arrays the region leaves.

  The grid visits, for each of the two batch blocks (8 batch entries each), the 32 tiles of the image row by row. The
  staging buffer of each accumulator is zeroed at the block's first tile and written back after its last, and every point
  adds its tile's contribution: so after the s-th tile of a block it holds the sum of the contributions of tiles 0..s,
  and what is written back is the sum over all 32 tiles, which is the sum over the whole 512 × 512 image. The two result
  arrays are therefore `probArr` of the logits and `countArr` of the labels.
-/
import proofs.«410221_j10393820857111_3_alg».proof.Proof.Pieces
import proofs.«410221_j10393820857111_3_alg».proof.Proof.TileTerms
import proofs.«410221_j10393820857111_3_alg».proof.Proof.TileSum
import proofs.«410221_j10393820857111_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.HistLoss.Kernel

open Cert.KernelIdeal Cert.KernelIdeal.Gen Cert.HistLoss

variable (m : (ℓ : Loc nD τ sig) → Buf (Elt Ideal) ℓ)

/-- The logits and the labels as the region finds them, and the blocks of them a point stages. -/
abbrev logits (c : Dev nD) : SP.Idx → EReal := V m c main_arg0
abbrev labels (c : Dev nD) : ST.Idx → BitVec 32 := V m c main_arg1
abbrev xblk (c : Dev nD) (t : Fin cfg0.N) : Vec Ideal S8x21x64x128 .f32 := iblk m c 0 t
abbrev tblk (c : Dev nD) (t : Fin cfg0.N) : Vec Ideal S8x1x64x128 .i32 := iblk m c 1 t

/-! ## Pixels at natural-number coordinates -/

/-- A logit, and a label, at natural-number coordinates (a default outside the array, never met below). -/
def logitAt (X : SP.Idx → EReal) (b k h w : ℕ) : EReal :=
  if hh : b < 16 ∧ k < 21 ∧ h < 512 ∧ w < 512 then X (ix4 ⟨b, hh.1⟩ ⟨k, hh.2.1⟩ ⟨h, hh.2.2.1⟩ ⟨w, hh.2.2.2⟩) else 0
def labelAt (T : ST.Idx → BitVec 32) (b h w : ℕ) : BitVec 32 :=
  if hh : b < 16 ∧ h < 512 ∧ w < 512 then T (ix4 ⟨b, hh.1⟩ 0 ⟨h, hh.2.1⟩ ⟨w, hh.2.2⟩) else 0

/-- One pixel's softmax probability of class k, and its indicator of label k. -/
def massAt (X : SP.Idx → EReal) (b : ℕ) (k : Fin 21) (h w : ℕ) : EReal :=
  Ideal.exp (logitAt X b k.val h w) * Ideal.div 1 (∑ k' : Fin 21, Ideal.exp (logitAt X b k'.val h w))
def hitAt (T : ST.Idx → BitVec 32) (b : ℕ) (k : Fin 21) (h w : ℕ) : EReal :=
  if labelAt T b h w = BitVec.ofNat 32 k.val then (1 : EReal) else 0

theorem logitAt_fin (X : SP.Idx → EReal) (b : Fin 16) (k : Fin 21) (h w : Fin 512) :
    logitAt X b.val k.val h.val w.val = X (ix4 b k h w) := dif_pos ⟨b.isLt, k.isLt, h.isLt, w.isLt⟩
theorem labelAt_fin (T : ST.Idx → BitVec 32) (b : Fin 16) (h w : Fin 512) :
    labelAt T b.val h.val w.val = T (ix4 b 0 h w) := dif_pos ⟨b.isLt, h.isLt, w.isLt⟩

theorem probSum_eq (X : SP.Idx → EReal) (b : Fin 16) (k : Fin 21) :
    probSum X b k = ∑ h : Fin 512, ∑ w : Fin 512, massAt X b.val k h.val w.val := by
  unfold probSum massAt
  simp only [logitAt_fin]
theorem labelCount_eq (T : ST.Idx → BitVec 32) (b : Fin 16) (k : Fin 21) :
    labelCount T b k = ∑ h : Fin 512, ∑ w : Fin 512, hitAt T b.val k h.val w.val := by
  unfold labelCount hitAt
  simp only [labelAt_fin]

/-! ## Where a point's blocks sit -/

/-- Point t works on batch block t / 32, tile row (t % 32) / 4, tile column (t % 32) % 4 — decided over the grid. -/
theorem idx_facts : ∀ t : Fin cfg0.N,
    win0_0.index t (0 : Fin 4) = t.val / 32 ∧ win0_0.index t (1 : Fin 4) = 0
    ∧ win0_0.index t (2 : Fin 4) = t.val % 32 / 4 ∧ win0_0.index t (3 : Fin 4) = t.val % 32 % 4
    ∧ win0_1.index t (0 : Fin 4) = t.val / 32 ∧ win0_1.index t (1 : Fin 4) = 0
    ∧ win0_1.index t (2 : Fin 4) = t.val % 32 / 4 ∧ win0_1.index t (3 : Fin 4) = t.val % 32 % 4
    ∧ win0_2.index t (0 : Fin 2) = t.val / 32 ∧ win0_2.index t (1 : Fin 2) = 0
    ∧ win0_3.index t (0 : Fin 2) = t.val / 32 ∧ win0_3.index t (1 : Fin 2) = 0 :=
  (by decide +kernel : ∀ t : Fin grid0.N, _)

/-- The logits' block at point t, read at (b, k, h, w), is the logit of batch entry 8 (t / 32) + b at the tile's pixel. -/
theorem xblk_apply (c : Dev nD) (t : Fin cfg0.N) (b : Fin 8) (k : Fin 21) (h : Fin 64) (w : Fin 128) :
    xblk m c t (ix4 b k h w)
      = logitAt (logits m c) (t.val / 32 * 8 + b.val) k.val (t.val % 32 / 4 * 64 + h.val) (t.val % 32 % 4 * 128 + w.val) := by
  have hN : t.val < 64 := lt_of_lt_of_eq t.isLt (show cfg0.N = 64 from N_0)
  have hb := b.isLt; have hk := k.isLt; have hh := h.isLt; have hw := w.isLt
  obtain ⟨e0, e1, e2, e3, -⟩ := idx_facts t
  unfold logitAt
  rw [dif_pos ⟨by omega, hk, by omega, by omega⟩]
  unfold xblk iblk
  rw [View.read_apply]
  show V m c main_arg0 _ = V m c main_arg0 _
  refine congrArg (V m c main_arg0) (funext fun a => Fin.ext ?_)
  match a with
  | ⟨0, _⟩ => show win0_0.index t (0 : Fin 4) * 8 + 1 * b.val = t.val / 32 * 8 + b.val; rw [e0]; omega
  | ⟨1, _⟩ => show win0_0.index t (1 : Fin 4) * 21 + 1 * k.val = k.val; rw [e1]; omega
  | ⟨2, _⟩ => show win0_0.index t (2 : Fin 4) * 64 + 1 * h.val = t.val % 32 / 4 * 64 + h.val; rw [e2]; omega
  | ⟨3, _⟩ => show win0_0.index t (3 : Fin 4) * 128 + 1 * w.val = t.val % 32 % 4 * 128 + w.val; rw [e3]; omega

/-- The labels' block likewise. -/
theorem tblk_apply (c : Dev nD) (t : Fin cfg0.N) (b : Fin 8) (h : Fin 64) (w : Fin 128) :
    tblk m c t (ix4 b 0 h w)
      = labelAt (labels m c) (t.val / 32 * 8 + b.val) (t.val % 32 / 4 * 64 + h.val) (t.val % 32 % 4 * 128 + w.val) := by
  have hN : t.val < 64 := lt_of_lt_of_eq t.isLt (show cfg0.N = 64 from N_0)
  have hb := b.isLt; have hh := h.isLt; have hw := w.isLt
  obtain ⟨-, -, -, -, e0, e1, e2, e3, -⟩ := idx_facts t
  unfold labelAt
  rw [dif_pos ⟨by omega, by omega, by omega⟩]
  unfold tblk iblk
  rw [View.read_apply]
  show V m c main_arg1 _ = V m c main_arg1 _
  refine congrArg (V m c main_arg1) (funext fun a => Fin.ext ?_)
  match a with
  | ⟨0, _⟩ => show win0_1.index t (0 : Fin 4) * 8 + 1 * b.val = t.val / 32 * 8 + b.val; rw [e0]; omega
  | ⟨1, _⟩ => show win0_1.index t (1 : Fin 4) * 1 + 1 * 0 = 0; rw [e1]
  | ⟨2, _⟩ => show win0_1.index t (2 : Fin 4) * 64 + 1 * h.val = t.val % 32 / 4 * 64 + h.val; rw [e2]; omega
  | ⟨3, _⟩ => show win0_1.index t (3 : Fin 4) * 128 + 1 * w.val = t.val % 32 % 4 * 128 + w.val; rw [e3]; omega

/-! ## One point's contribution, in the image's coordinates -/

/-- Point n adds to the mass accumulator, at (b, k), the softmax mass of class k over its tile for batch entry 8 (n / 32) + b. -/
theorem mass_tile (c : Dev nD) (n : ℕ) (hn : n < cfg0.N) (acc : Vec Ideal S8x21 .f32) (b : Fin 8) (k : Fin 21) :
    k0_pay4 (F := Ideal) (xblk m c ⟨n, hn⟩) acc (ix2 b k)
      = acc (ix2 b k) + ∑ h : Fin 64, ∑ w : Fin 128,
          massAt (logits m c) (n / 32 * 8 + b.val) k (n % 32 / 4 * 64 + h.val) (n % 32 % 4 * 128 + w.val) := by
  refine (probTile_apply (xblk m c ⟨n, hn⟩) acc b k).trans (congrArg (acc (ix2 b k) + ·) ?_)
  refine Finset.sum_congr rfl fun h _ => Finset.sum_congr rfl fun w _ => ?_
  unfold massAt
  rw [xblk_apply m c ⟨n, hn⟩ b k h w]
  refine congrArg (fun z => _ * Ideal.div 1 z) (Finset.sum_congr rfl fun k' _ => ?_)
  rw [xblk_apply m c ⟨n, hn⟩ b k' h w]

/-- Point n adds to the count accumulator, at (b, k), the number of pixels of its tile labelled k. -/
theorem count_tile (c : Dev nD) (n : ℕ) (hn : n < cfg0.N) (acc : Vec Ideal S8x21 .f32) (b : Fin 8) (k : Fin 21) :
    k0_pay1 (F := Ideal) (k0_pay5 (F := Ideal) (tblk m c ⟨n, hn⟩)) acc (ix2 b k)
      = acc (ix2 b k) + ∑ h : Fin 64, ∑ w : Fin 128,
          hitAt (labels m c) (n / 32 * 8 + b.val) k (n % 32 / 4 * 64 + h.val) (n % 32 % 4 * 128 + w.val) := by
  refine (countTile_apply (tblk m c ⟨n, hn⟩) acc b k).trans (congrArg (acc (ix2 b k) + ·) ?_)
  refine Finset.sum_congr rfl fun h _ => Finset.sum_congr rfl fun w _ => ?_
  unfold hitAt
  rw [tblk_apply m c ⟨n, hn⟩ b h w]

/-! ## The accumulators after each point -/

/-- After point n the mass accumulator holds the contributions of the tiles 0 .. n % 32 of the current batch block. -/
theorem mass_acc (c : Dev nD) : ∀ (n : ℕ) (hn : n < cfg0.N) (b : Fin 8) (k : Fin 21),
    (outsAt0 m c n hn).1 (ix2 b k)
      = ∑ s ∈ Finset.range (n % 32 + 1), ∑ h : Fin 64, ∑ w : Fin 128,
          massAt (logits m c) (n / 32 * 8 + b.val) k (s / 4 * 64 + h.val) (s % 4 * 128 + w.val)
  | 0, hn, b, k => by
    rw [outsAt0_A m c ⟨0, hn⟩ rfl]
    dsimp only
    rw [mass_open]
    refine (mass_tile m c 0 hn _ b k).trans ?_
    rw [reset2_apply, zero_add]
    simp only [Nat.zero_mod, Nat.zero_div, Finset.sum_range_one, zero_add]
  | n + 1, hn, b, k => by
    have hN : n + 1 < 64 := lt_of_lt_of_eq hn N_0
    by_cases h0 : (n + 1) % 32 = 0
    · rw [outsAt0_A m c ⟨n + 1, hn⟩ h0]
      dsimp only
      rw [mass_open]
      refine (mass_tile m c (n + 1) hn _ b k).trans ?_
      rw [reset2_apply, zero_add, h0]
      simp only [Finset.sum_range_one, zero_add]
    · rw [outsAt0_B m c ⟨n + 1, hn⟩ h0]
      dsimp only
      rw [mass_step]
      refine (mass_tile m c (n + 1) hn (outsAt0 m c n (Nat.lt_of_succ_lt hn)).1 b k).trans ?_
      rw [mass_acc c n (Nat.lt_of_succ_lt hn) b k]
      have e1 : (n + 1) % 32 = n % 32 + 1 := by omega
      have e2 : (n + 1) / 32 = n / 32 := by omega
      rw [e1, e2]
      exact (Finset.sum_range_succ _ _).symm

/-- After point n the count accumulator holds the counts of the tiles 0 .. n % 32 of the current batch block. -/
theorem count_acc (c : Dev nD) : ∀ (n : ℕ) (hn : n < cfg0.N) (b : Fin 8) (k : Fin 21),
    (outsAt0 m c n hn).2 (ix2 b k)
      = ∑ s ∈ Finset.range (n % 32 + 1), ∑ h : Fin 64, ∑ w : Fin 128,
          hitAt (labels m c) (n / 32 * 8 + b.val) k (s / 4 * 64 + h.val) (s % 4 * 128 + w.val)
  | 0, hn, b, k => by
    rw [outsAt0_A m c ⟨0, hn⟩ rfl]
    dsimp only
    rw [count_open]
    refine (count_tile m c 0 hn _ b k).trans ?_
    rw [reset3_apply, zero_add]
    simp only [Nat.zero_mod, Nat.zero_div, Finset.sum_range_one, zero_add]
  | n + 1, hn, b, k => by
    have hN : n + 1 < 64 := lt_of_lt_of_eq hn N_0
    by_cases h0 : (n + 1) % 32 = 0
    · rw [outsAt0_A m c ⟨n + 1, hn⟩ h0]
      dsimp only
      rw [count_open]
      refine (count_tile m c (n + 1) hn _ b k).trans ?_
      rw [reset3_apply, zero_add, h0]
      simp only [Finset.sum_range_one, zero_add]
    · rw [outsAt0_B m c ⟨n + 1, hn⟩ h0]
      dsimp only
      rw [count_step]
      refine (count_tile m c (n + 1) hn (outsAt0 m c n (Nat.lt_of_succ_lt hn)).2 b k).trans ?_
      rw [count_acc c n (Nat.lt_of_succ_lt hn) b k]
      have e1 : (n + 1) % 32 = n % 32 + 1 := by omega
      have e2 : (n + 1) / 32 = n / 32 := by omega
      rw [e1, e2]
      exact (Finset.sum_range_succ _ _).symm

/-! ## What is written back, and the arrays the region leaves -/

/-- The write-back of the mass accumulator (after the last tile of a batch block) writes that block of `probArr`:
    the 32 tiles' contributions make up the sum over the image. -/
theorem mass_flushed (c : Dev nD) (t : Fin cfg0.N) (hf : (cfg0.win 2).flush t = true) :
    (dats m 0 c).flushed 2 t = ((cfg0.win 2).blk t).view.read (Elt Ideal) (probArr (logits m c)) := by
  have h31 : t.val % 32 = 31 := (flush0_2 t).mp hf
  have hN : t.val < 64 := lt_of_lt_of_eq t.isLt (show cfg0.N = 64 from N_0)
  obtain ⟨-, -, -, -, -, -, -, -, e0, e1, -⟩ := idx_facts t
  show (cfg0.win 2).cut (grid0.coords t) ((dats m 0 c).after 2 t) = _
  rw [after0_2]
  funext j
  obtain ⟨b, k, rfl⟩ : ∃ (b : Fin 8) (k : Fin 21), j = ix2 b k := ⟨j 0, j 1, eq_ix2 j⟩
  have hb := b.isLt; have hk := k.isLt
  show (outsAt0 m c t.val t.isLt).1 (ix2 b k) = probArr (logits m c) (((cfg0.win 2).blk t).view.emb (ix2 b k))
  rw [mass_acc m c t.val t.isLt b k, h31]
  have hemb : ((cfg0.win 2).blk t).view.emb (ix2 b k) = ix2 (⟨t.val / 32 * 8 + b.val, by omega⟩ : Fin 16) k :=
    funext fun a => Fin.ext (by
      match a with
      | ⟨0, _⟩ => show win0_2.index t (0 : Fin 2) * 8 + 1 * b.val = t.val / 32 * 8 + b.val; rw [e0]; omega
      | ⟨1, _⟩ => show win0_2.index t (1 : Fin 2) * 21 + 1 * k.val = k.val; rw [e1]; omega)
  rw [hemb, probArr_ix2, probSum_eq]
  exact sum_tiles (fun h w => massAt (logits m c) (t.val / 32 * 8 + b.val) k h w)

/-- The write-back of the count accumulator writes that block of `countArr`. -/
theorem count_flushed (c : Dev nD) (t : Fin cfg0.N) (hf : (cfg0.win 3).flush t = true) :
    (dats m 0 c).flushed 3 t = ((cfg0.win 3).blk t).view.read (Elt Ideal) (countArr (labels m c)) := by
  have h31 : t.val % 32 = 31 := (flush0_3 t).mp hf
  have hN : t.val < 64 := lt_of_lt_of_eq t.isLt (show cfg0.N = 64 from N_0)
  obtain ⟨-, -, -, -, -, -, -, -, -, -, e0, e1⟩ := idx_facts t
  show (cfg0.win 3).cut (grid0.coords t) ((dats m 0 c).after 3 t) = _
  rw [after0_3]
  funext j
  obtain ⟨b, k, rfl⟩ : ∃ (b : Fin 8) (k : Fin 21), j = ix2 b k := ⟨j 0, j 1, eq_ix2 j⟩
  have hb := b.isLt; have hk := k.isLt
  show (outsAt0 m c t.val t.isLt).2 (ix2 b k) = countArr (labels m c) (((cfg0.win 3).blk t).view.emb (ix2 b k))
  rw [count_acc m c t.val t.isLt b k, h31]
  have hemb : ((cfg0.win 3).blk t).view.emb (ix2 b k) = ix2 (⟨t.val / 32 * 8 + b.val, by omega⟩ : Fin 16) k :=
    funext fun a => Fin.ext (by
      match a with
      | ⟨0, _⟩ => show win0_3.index t (0 : Fin 2) * 8 + 1 * b.val = t.val / 32 * 8 + b.val; rw [e0]; omega
      | ⟨1, _⟩ => show win0_3.index t (1 : Fin 2) * 21 + 1 * k.val = k.val; rw [e1]; omega)
  rw [hemb, countArr_ix2, labelCount_eq]
  exact sum_tiles (fun h w => hitAt (labels m c) (t.val / 32 * 8 + b.val) k h w)

/-- Row i₀ of a [16, 21] result array is written back by the last point of batch block i₀ / 8. -/
theorem last_point (q : ℕ) (hq : q < 2) : q * 32 + 31 < cfg0.N := by
  rw [show cfg0.N = 64 from N_0]; omega

/-- The region leaves `probArr` of the logits in the first result array: the two write-backs cover it. -/
theorem mass_final (c : Dev nD) : (dats m 0 c).arrAt 2 cfg0.N = probArr (logits m c) :=
  (dats m 0 c).arrAt_eq_of_cover 2 (probArr (logits m c)) (mass_flushed m c) fun i => by
    have hi0 : (i 0 : ℕ) < 16 := (i 0).isLt
    have hi1 : (i 1 : ℕ) < 21 := (i 1).isLt
    have hq : (i 0 : ℕ) / 8 < 2 := by omega
    refine ⟨⟨(i 0 : ℕ) / 8 * 32 + 31, last_point _ hq⟩, (flush0_2 _).mpr (by dsimp only; omega), ?_⟩
    obtain ⟨-, -, -, -, -, -, -, -, e0, e1, -⟩ := idx_facts ⟨(i 0 : ℕ) / 8 * 32 + 31, last_point _ hq⟩
    dsimp only at e0 e1
    show i ∈ ((View.whole main_v0_0).slice (win0_2.rect ⟨(i 0 : ℕ) / 8 * 32 + 31, last_point _ hq⟩)).set
    rw [View.set_slice_whole, Rect.mem_set_unit]
    intro a
    match a with
    | ⟨0, _⟩ =>
      show win0_2.index ⟨(i 0 : ℕ) / 8 * 32 + 31, last_point _ hq⟩ (0 : Fin 2) * 8 ≤ (i 0 : ℕ)
        ∧ (i 0 : ℕ) < win0_2.index ⟨(i 0 : ℕ) / 8 * 32 + 31, last_point _ hq⟩ (0 : Fin 2) * 8 + 8
      rw [e0]; omega
    | ⟨1, _⟩ =>
      show win0_2.index ⟨(i 0 : ℕ) / 8 * 32 + 31, last_point _ hq⟩ (1 : Fin 2) * 21 ≤ (i 1 : ℕ)
        ∧ (i 1 : ℕ) < win0_2.index ⟨(i 0 : ℕ) / 8 * 32 + 31, last_point _ hq⟩ (1 : Fin 2) * 21 + 21
      rw [e1]; omega

/-- The region leaves `countArr` of the labels in the second result array. -/
theorem count_final (c : Dev nD) : (dats m 0 c).arrAt 3 cfg0.N = countArr (labels m c) :=
  (dats m 0 c).arrAt_eq_of_cover 3 (countArr (labels m c)) (count_flushed m c) fun i => by
    have hi0 : (i 0 : ℕ) < 16 := (i 0).isLt
    have hi1 : (i 1 : ℕ) < 21 := (i 1).isLt
    have hq : (i 0 : ℕ) / 8 < 2 := by omega
    refine ⟨⟨(i 0 : ℕ) / 8 * 32 + 31, last_point _ hq⟩, (flush0_3 _).mpr (by dsimp only; omega), ?_⟩
    obtain ⟨-, -, -, -, -, -, -, -, -, -, e0, e1⟩ := idx_facts ⟨(i 0 : ℕ) / 8 * 32 + 31, last_point _ hq⟩
    dsimp only at e0 e1
    show i ∈ ((View.whole main_v0_1).slice (win0_3.rect ⟨(i 0 : ℕ) / 8 * 32 + 31, last_point _ hq⟩)).set
    rw [View.set_slice_whole, Rect.mem_set_unit]
    intro a
    match a with
    | ⟨0, _⟩ =>
      show win0_3.index ⟨(i 0 : ℕ) / 8 * 32 + 31, last_point _ hq⟩ (0 : Fin 2) * 8 ≤ (i 0 : ℕ)
        ∧ (i 0 : ℕ) < win0_3.index ⟨(i 0 : ℕ) / 8 * 32 + 31, last_point _ hq⟩ (0 : Fin 2) * 8 + 8
      rw [e0]; omega
    | ⟨1, _⟩ =>
      show win0_3.index ⟨(i 0 : ℕ) / 8 * 32 + 31, last_point _ hq⟩ (1 : Fin 2) * 21 ≤ (i 1 : ℕ)
        ∧ (i 1 : ℕ) < win0_3.index ⟨(i 0 : ℕ) / 8 * 32 + 31, last_point _ hq⟩ (1 : Fin 2) * 21 + 21
      rw [e1]; omega

end Cert.HistLoss.Kernel

end
-- ==== Proof.KernelRun.lean ====
/-
  The kernel's run, read: the program ends with the loss of the two statistics.

  After the region the program divides both result arrays by 262144 (the number of pixels), takes the absolute
  difference, sums it over the 16 × 21 entries and divides by 16. `loss S C` names that chain as one function of the two
  arrays; the region leaves `probArr` of the logits and `countArr` of the labels in them, so the program's result is
  `loss` of those.
-/
import proofs.«410221_j10393820857111_3_alg».proof.Proof.Accumulate
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.HistLoss.Kernel

open Cert.KernelIdeal Cert.KernelIdeal.Gen Cert.HistLoss

variable (m : (ℓ : Loc nD τ sig) → Buf (Elt Ideal) ℓ) (ρ : Dev nD → PrngReg)

/-- (Σ_{b,k} |C / 262144 − S / 262144|) / 16, as the host operations compute it. -/
def loss (S C : FVec Ideal S16x21 .f32) : FVec Ideal S_ .f32 :=
  Host.divf
    (Host.reduceAdd
      (Host.absf
        (subf
          (Host.divf C (broadcastInDim S16x21 ![] bcast_S_S16x21 (constant (F := Ideal) S_ .f32 0x48800000#32)))
          (Host.divf S (broadcastInDim S16x21 ![] bcast_S_S16x21 (constant (F := Ideal) S_ .f32 0x48800000#32)))))
      (constant (F := Ideal) S_ .f32 0x00000000#32) reducesTo_S16x21_S_d0_1 h_S_)
    (constant (F := Ideal) S_ .f32 0x41800000#32)

/-- The lines after the region compute `loss` of the two arrays the region leaves. -/
theorem tail_result (c : Dev nD) :
    Pipeline.afterTail₀ cfgs (dats m) 0 (V0 m) [hostOps1] c main_v8
      = loss (probArr (logits m c)) (countArr (labels m c)) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v0_0)
      = probArr (logits m c) :=
    (Pipeline.withArrays_arr spec0 launch0.win.arr_inj c _ _ 2).trans (mass_final m c)
  have e3 : Pipeline.withArrays (cfgs 0).spec c (V0 m c) (fun w => (dats m 0 c).arrAt w (cfgs 0).N) (Proc.devRef .tc main_v0_1)
      = countArr (labels m c) :=
    (Pipeline.withArrays_arr spec0 launch0.win.arr_inj c _ _ 3).trans (count_final m c)
  rw [e2, e3]
  rfl

/-- Every weakly fair execution of the kernel's program ends with the loss of the statistics of its arguments, the
    arguments unchanged. -/
theorem run : θ_run defs (onTc (τ := τ) (main (F := Ideal))) ⟨m, fun _ => 0, ρ⟩ fun r => ∀ c : Dev nD,
      r.2.mem ((c : Thread nD τ).loc main_v8)
        = loss (probArr (m ((c : Thread nD τ).loc main_arg0))) (countArr (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 rfl (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.HistLoss.Kernel

end
-- ==== Proof.LabelRange.lean ====
/-
  Reading the precondition: where it holds, every logit is a real number and every label lies in [0, 21).
-/
import proofs.«410221_j10393820857111_3_alg».proof.Pre_finite_inputs
import proofs.«410221_j10393820857111_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.HistLoss

open Idealize.ShloMosaic

/-- The only index of a rank-0 shape: any two agree. -/
instance subsingleton_scalar_idx : Subsingleton Cert.Pre_finite_inputs.S_.Idx := ⟨fun a b => funext fun d => d.elim0⟩

/-- An extended real whose absolute value max a (-a) is strictly below the f32 pattern of +∞ (which denotes ⊤) is a
    real number: at ⊥ and at ⊤ the absolute value is ⊤ itself. -/
theorem real_of_abs_olt_inf (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = ((r : ℝ) : EReal) := by
  have htop : Ideal.ofBits .f32 0x7F800000#32 = (⊤ : EReal) := by simp [Ideal.ofBits, Ideal.ieee]
  change Ideal.cmp .olt (max a (-a)) (Ideal.ofBits .f32 0x7F800000#32) = 1#1 at h
  rw [htop] at h
  have h' : max a (-a) < (⊤ : EReal) := by
    simpa only [Ideal.cmp, StableHlo.Predicate.ofBool_eq_one_iff, decide_eq_true_eq] using h
  induction a using EReal.rec with
  | bot => simp at h'
  | coe r => exact ⟨r, rfl⟩
  | top => simp at h'

/-- A 32-bit word signed-at-least 0 and signed-below 21 has its signed value in [0, 21). -/
theorem toInt_range_of_cmpi (a : BitVec 32) (h0 : IntOp.cmpi .sge a 0#32 = 1#1) (h1 : IntOp.cmpi .slt a 21#32 = 1#1) :
    0 ≤ a.toInt ∧ a.toInt < 21 := by
  have e0 : (0#32 : BitVec 32).toInt = 0 := by decide
  have e21 : (21#32 : BitVec 32).toInt = 21 := by decide
  have g0 := IntOp.cmpi_sge.1 h0
  have g1 := IntOp.cmpi_slt.1 h1
  rw [e0] at g0
  rw [e21] at g1
  exact ⟨g0, g1⟩

/-- The printed precondition (|x| < +∞ everywhere, and 0 ≤ t, t < 21 everywhere, as three all-reductions joined by
    `and`) says: every logit is real, every label is in range. -/
theorem pre_read (x : FVec Ideal Cert.Pre_finite_inputs.S16x21x512x512 .f32) (t : IVec Cert.Pre_finite_inputs.S16x1x512x512 32)
    (h : Cert.Pre_finite_inputs.fn (F := Ideal) x t = fun _ => 1#1) :
    (∀ i, ∃ r : ℝ, x i = ((r : ℝ) : EReal)) ∧ (∀ i, 0 ≤ (t i).toInt ∧ (t i).toInt < 21) := by
  -- the scalar result at its one index, the chain of operations in view
  have h0 := congrFun h ValueIdx.ix0
  dsimp only [Cert.Pre_finite_inputs.fn] at h0
  -- the two `and`s: each of the three all-reductions is 1
  obtain ⟨h12, h3⟩ := IntOp.andi_eq_one.1 h0
  obtain ⟨h1, h2⟩ := IntOp.andi_eq_one.1 h12
  refine ⟨fun i => ?_, fun i => ?_⟩
  · -- |x i| < +∞, the +∞ read through the scalar broadcast
    have e := Host.reduce_andi_all _ _ _ _ _ h1 i
    change FloatOps.cmpf (F := Ideal) .olt (FloatOps.hostAbsf (x i)) (broadcastInDim _ _ _ _ i) = 1#1 at e
    rw [StableHlo.Predicate.bcast_scalar _ Cert.Pre_finite_inputs.Facts.h_S_] at e
    exact real_of_abs_olt_inf (x i) e
  · -- 0 ≤ t i and t i < 21, the bounds read through the scalar broadcasts
    have e2 := Host.reduce_andi_all _ _ _ _ _ h2 i
    have e3 := Host.reduce_andi_all _ _ _ _ _ h3 i
    change IntOp.cmpi .sge (t i) (broadcastInDim _ _ _ _ i) = 1#1 at e2
    change IntOp.cmpi .slt (t i) (broadcastInDim _ _ _ _ i) = 1#1 at e3
    rw [StableHlo.Predicate.bcast_scalar _ Cert.Pre_finite_inputs.Facts.h_S_] at e2 e3
    exact toInt_range_of_cmpi (t i) e2 e3

end Cert.HistLoss

end
-- ==== Proof.SoftmaxSum.lean ====
/-
  The reference's softmax, summed over the image, is `probSum`: on real logits, subtracting the channel maximum before
  exponentiating cancels between numerator and denominator, and e / s = e · (1 / s) for a positive real s.
-/
import proofs.«410221_j10393820857111_3_alg».proof.Proof.Gen.ReferenceIdeal.Read
import proofs.«410221_j10393820857111_3_alg».proof.Proof.Spec
import Idealize.ShloMosaic.PureOps.Ideal.Laws
import Idealize.ShloMosaic.Lib.ValueIdx

noncomputable section

namespace Cert.HistLoss

open Idealize.ShloMosaic Idealize.ShloMosaic.ValueIdx Cert.ReferenceIdeal Cert.ReferenceIdeal.Gen

/-! ## Pure facts over the reals and the extended reals -/

/-- A finite sum of reals, coerced, is the sum of the coerced terms. -/
theorem coe_sum_real {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- Softmax is invariant under a real shift, and a quotient by a positive real is the product with the reciprocal:
    e^(r c − m) / Σ_k e^(r k − m) = e^(r c) · (1 / Σ_k e^(r k)), over a nonempty finite family of reals. -/
theorem softmax_shift {ι : Type*} [Fintype ι] [Nonempty ι] (r : ι → ℝ) (m : ℝ) (c : ι) :
    Ideal.div (Ideal.exp ((r c : EReal) - (m : EReal))) (∑ k : ι, Ideal.exp ((r k : EReal) - (m : EReal)))
      = Ideal.exp (r c : EReal) * Ideal.div 1 (∑ k : ι, Ideal.exp (r k : EReal)) := by
  have hs : ∀ t : ι → ℝ, (∑ k : ι, Ideal.exp ((t k : ℝ) : EReal)) = ((∑ k : ι, Real.exp (t k) : ℝ) : EReal) := by
    intro t; rw [coe_sum_real]; rfl
  have hpos : ∀ t : ι → ℝ, (∑ k : ι, Real.exp (t k)) ≠ 0 := fun t =>
    (Finset.sum_pos (fun k _ => Real.exp_pos (t k)) Finset.univ_nonempty).ne'
  simp only [← EReal.coe_sub]
  rw [hs (fun k => r k - m), hs r, Ideal.div_coe (hpos _), Ideal.div_coe (hpos r), Ideal.exp_coe, Ideal.exp_coe,
    ← EReal.coe_one, ← EReal.coe_mul, ← EReal.coe_mul, ← EReal.coe_mul]
  congr 1
  simp only [Real.exp_sub, ← Finset.sum_div]
  have h1 := hpos r
  have h2 := (Real.exp_pos m).ne'
  field_simp

/-- The maximum of a nonempty finite family of reals, folded from −∞ in the extended reals, is a real. -/
theorem fold_max_bot_coe {ι : Type*} (s : Finset ι) (hs : s.Nonempty) (g : ι → ℝ) :
    ∃ m : ℝ, s.fold max (⊥ : EReal) (fun i => ((g i : ℝ) : EReal)) = (m : EReal) := by
  induction hs using Finset.Nonempty.cons_induction with
  | singleton a => exact ⟨g a, by rw [Finset.fold_singleton]; exact max_eq_left bot_le⟩
  | cons a s ha hs ih =>
    obtain ⟨m, hm⟩ := ih
    rw [Finset.fold_cons, hm]
    rcases le_total (g a) m with h | h
    · exact ⟨m, max_eq_right (EReal.coe_le_coe_iff.2 h)⟩
    · exact ⟨g a, max_eq_left (EReal.coe_le_coe_iff.2 h)⟩

/-- The f32 pattern of −∞ is the extended real ⊥. -/
theorem ofBits_neginf_f32 : Ideal.ofBits .f32 0xFF800000#32 = ⊥ := by simp [Ideal.ofBits, Ideal.ieee]

/-! ## A sum over the two spatial axes of a [16, 21, 512, 512] array -/

/-- The indices of a [16, 21, 512, 512] array that keep (b, c) when axes 2 and 3 are dropped are the (b, c, h, w):
    summing over them is the double sum over h and w. -/
theorem sum_filter_drop_hw {M : Type*} [AddCommMonoid M]
    (h : (⟨4, ![16, 21, 512, 512]⟩ : Shape).ReducesTo [2, 3] ⟨2, ![16, 21]⟩)
    (y : (⟨4, ![16, 21, 512, 512]⟩ : Shape).Idx → M) (b : Fin 16) (c : Fin 21)
    [DecidablePred fun i : (⟨4, ![16, 21, 512, 512]⟩ : Shape).Idx => h.drop i = ix2 b c] :
    ∑ i ∈ Finset.univ.filter (fun i => h.drop i = ix2 b c), y i
      = ∑ hh : Fin 512, ∑ w : Fin 512, y (ix4 b c hh w) := by
  have hinv : ∀ i : (⟨4, ![16, 21, 512, 512]⟩ : Shape).Idx, h.drop i = ix2 b c → ix4 b c (i 2) (i 3) = i := by
    intro i hj
    have h0 : (i 0).val = b.val := by
      rw [← Shape.ReducesTo.drop_apply_val_of_eq h i 0 0, hj]
    have h1 : (i 1).val = c.val := by
      rw [← Shape.ReducesTo.drop_apply_val_of_eq h i 1 1, hj]
    funext a
    match a with
    | ⟨0, _⟩ => exact Fin.ext h0.symm
    | ⟨1, _⟩ => exact Fin.ext h1.symm
    | ⟨2, _⟩ => rfl
    | ⟨3, _⟩ => rfl
  rw [← Finset.sum_product' (Finset.univ : Finset (Fin 512)) (Finset.univ : Finset (Fin 512))
    (fun hh w => y (ix4 b c hh w))]
  refine Finset.sum_nbij' (fun i => ((i 2, i 3) : Fin 512 × Fin 512)) (fun p => ix4 b c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a
    match a with
    | ⟨0, _⟩ => exact Fin.ext (Shape.ReducesTo.drop_apply_val_of_eq h (ix4 b c p.1 p.2) 0 0)
    | ⟨1, _⟩ => exact Fin.ext (Shape.ReducesTo.drop_apply_val_of_eq h (ix4 b c p.1 p.2) 1 1)
  · intro i hi; exact hinv i (Finset.mem_filter.1 hi).2
  · intro p _; rfl
  · intro i hi; exact congrArg y (hinv i (Finset.mem_filter.1 hi).2).symm

/-! ## The reference's stages at a pixel -/

/-- The two broadcasts of the channel maximum read (b, c, h, w) at (b, h, w). -/
theorem idx_v3_v4 (b : Fin 16) (c : Fin 21) (hh w : Fin 512) :
    Read.idx_main_v3 (Read.idx_main_v4 (ix4 b c hh w)) = ix3 b hh w := by
  funext a
  match a with
  | ⟨0, _⟩ => rfl
  | ⟨1, _⟩ => rfl
  | ⟨2, _⟩ => rfl

/-- The two broadcasts of the channel sum read (b, c, h, w) at (b, h, w), whose k-th summand is at (b, k, h, w). -/
theorem idx_v7_v8_v9 (b : Fin 16) (c k : Fin 21) (hh w : Fin 512) :
    Read.idx_main_v7 (Read.idx_main_v8 (Read.idx_main_v9 (ix4 b c hh w))) k = ix4 b k hh w := by
  funext a
  match a with
  | ⟨0, _⟩ => rfl
  | ⟨1, _⟩ => rfl
  | ⟨2, _⟩ => rfl
  | ⟨3, _⟩ => rfl

/-- On real logits the shift the reference subtracts at a pixel, max(−∞, max over the 21 channels from −∞), is a real. -/
theorem shift_real (x : (⟨Cert.ReferenceIdeal.S16x21x512x512, .f32⟩ : BufTy).Contents (Elt Ideal))
    (hfin : ∀ i, ∃ r : ℝ, x i = ((r : ℝ) : EReal)) (b : Fin 16) (hh w : Fin 512) :
    ∃ m : ℝ, Read.val_main_v2 (F := Ideal) x (ix3 b hh w) = ((m : ℝ) : EReal) := by
  have hred : S16x21x512x512.Reduces [1] S16x512x512 := by decide
  choose g hg using hfin
  have hv0 : Read.val_main_v0 (F := Ideal) x (ix3 b hh w)
      = (Finset.univ : Finset (Fin (S16x21x512x512.size 1))).fold max (⊥ : EReal)
          (fun k => ((g (hred.lift (ix3 b hh w) k) : ℝ) : EReal)) := by
    have e := Host.reduce_eq_fold_single (α := Ideal .f32) (FloatOps.maximumf (F := Ideal) (φ := .f32)) x
      (Read.val_main_cst (F := Ideal)) reducesTo_S16x21x512x512_S16x512x512_d1 hred h_S_ (ix3 b hh w)
    have hx : (x ∘ hred.lift (ix3 b hh w)) = fun k => ((g (hred.lift (ix3 b hh w) k) : ℝ) : EReal) :=
      funext fun k => hg _
    rw [Read.val_main_cst_apply, Ideal.ofBits_def, ofBits_neginf_f32, hx] at e
    exact e
  obtain ⟨m, hm⟩ := fold_max_bot_coe (Finset.univ : Finset (Fin (S16x21x512x512.size 1)))
    ⟨⟨0, by decide⟩, Finset.mem_univ _⟩ (fun k => g (hred.lift (ix3 b hh w) k))
  refine ⟨m, ?_⟩
  rw [Read.val_main_v2_apply, Read.val_main_v1_apply, Read.val_main_cst_0_apply, Ideal.ofBits_def, ofBits_neginf_f32,
    Ideal.maximumf_def, hv0, hm]
  exact max_eq_right bot_le

/-- The reference's softmax at a pixel, on real logits: e^{x_c} times the reciprocal of the pixel's channel sum. -/
theorem softmax_pixel (x : (⟨Cert.ReferenceIdeal.S16x21x512x512, .f32⟩ : BufTy).Contents (Elt Ideal))
    (hfin : ∀ i, ∃ r : ℝ, x i = ((r : ℝ) : EReal)) (b : Fin 16) (c : Fin 21) (hh w : Fin 512) :
    Read.val_main_v10 (F := Ideal) x (ix4 b c hh w)
      = Ideal.exp (x (ix4 b c hh w)) * Ideal.div 1 (∑ c' : Fin 21, Ideal.exp (x (ix4 b c' hh w))) := by
  obtain ⟨m, hm⟩ := shift_real x hfin b hh w
  have h6 : ∀ k : Fin 21, Read.val_main_v6 (F := Ideal) x (ix4 b k hh w)
      = Ideal.exp (x (ix4 b k hh w) - ((m : ℝ) : EReal)) := by
    intro k
    rw [Read.val_main_v6_apply, Ideal.hostUnary_exp_def, Read.val_main_v5_apply, Ideal.subf_def,
      Read.val_main_v4_apply, Read.val_main_v3_apply, idx_v3_v4, hm]
  have h9 : Read.val_main_v9 (F := Ideal) x (ix4 b c hh w)
      = ∑ k : Fin 21, Ideal.exp (x (ix4 b k hh w) - ((m : ℝ) : EReal)) := by
    rw [Read.val_main_v9_apply, Read.val_main_v8_apply, Read.val_main_v7_apply, Read.val_main_cst_1_apply,
      Ideal.ofBits_def, Ideal.ofBits_zero_f32, zero_add]
    refine Finset.sum_congr rfl fun k _ => ?_
    rw [idx_v7_v8_v9, h6]
  rw [Read.val_main_v10_apply, Ideal.hostDivf_def, h6, h9]
  choose g hg using hfin
  simp only [hg]
  exact softmax_shift (fun k => g (ix4 b k hh w)) m c

/-- The reference's spatial sum of softmax probabilities (stage `main_v11`), read at (b, c), on real logits. -/
theorem ref_probSum (x : (⟨Cert.ReferenceIdeal.S16x21x512x512, .f32⟩ : BufTy).Contents (Elt Ideal))
    (hfin : ∀ i, ∃ r : ℝ, x i = ((r : ℝ) : EReal)) (b : Fin 16) (c : Fin 21) :
    Cert.ReferenceIdeal.Read.val_main_v11 (F := Ideal) x (ix2 b c) = probSum x b c := by
  unfold Read.val_main_v11
  simp only [Host.reduceAdd, Ideal.hostReduceAdd_def]
  unfold Ideal.hostReduceAdd
  rw [sum_filter_drop_hw, Read.val_main_cst_2_apply, Ideal.ofBits_def, Ideal.ofBits_zero_f32, zero_add]
  unfold probSum
  exact Finset.sum_congr rfl fun hh _ => Finset.sum_congr rfl fun w _ => softmax_pixel x hfin b c hh w

end Cert.HistLoss

end
-- ==== Proof.ScatterCount.lean ====
/-
  The reference's histogram: scatter-adding 1 at (b, t b 0 h w) for every pixel, into zeros, leaves at (b, c) the number
  of pixels of batch entry b labelled c, when every label lies in [0, 21) (no label is negative, so none is shifted by
  21, and every update lands inside the [16, 21] operand).
-/
import proofs.«410221_j10393820857111_3_alg».proof.Proof.Gen.ReferenceIdeal.Read
import proofs.«410221_j10393820857111_3_alg».proof.Proof.Spec
import Idealize.ShloMosaic.PureOps.Ideal.Laws
import Idealize.ShloMosaic.Lib.IdealHost
import Idealize.ShloMosaic.Lib.ValueIdx
import Idealize.ShloMosaic.Lib.StableHlo.Predicate

noncomputable section

namespace Cert.HistLoss

open Idealize.ShloMosaic Idealize.ShloMosaic.ValueIdx Cert.ReferenceIdeal Cert.ReferenceIdeal.Gen

/-- The dimension numbers of a point scatter into a rank-2 operand: every update is one element, its two start
    coordinates read off the last axis of the index array. -/
abbrev pointDims (n0 n1 m0 m1 : Nat)
    (wf : ScatterDims.WF ⟨2, ![n0, n1]⟩ ⟨3, ![m0, m1, 2]⟩ ⟨2, ![m0, m1]⟩ [] [0, 1] [0, 1] 2) :
    ScatterDims ⟨2, ![n0, n1]⟩ ⟨3, ![m0, m1, 2]⟩ ⟨2, ![m0, m1]⟩ where
  updateWindowDims := []
  insertedWindowDims := [0, 1]
  scatterDimsToOperandDims := [0, 1]
  indexVectorDim := 2
  wf := wf

/-- The index-array position holding component `k` of update `j`'s start index. -/
abbrev pointIdx {m0 m1 : Nat} (j : (⟨2, ![m0, m1]⟩ : Shape).Idx) (k : Fin 2) : (⟨3, ![m0, m1, 2]⟩ : Shape).Idx :=
  fun a => match a with | ⟨0, _⟩ => ⟨(j 0).val, idx2_lt0 j⟩ | ⟨1, _⟩ => ⟨(j 1).val, idx2_lt1 j⟩ | ⟨2, _⟩ => k

theorem pointDims_start {n0 n1 m0 m1 w : Nat}
    (wf : ScatterDims.WF ⟨2, ![n0, n1]⟩ ⟨3, ![m0, m1, 2]⟩ ⟨2, ![m0, m1]⟩ [] [0, 1] [0, 1] 2)
    (j : (⟨2, ![m0, m1]⟩ : Shape).Idx) (idx : IVec ⟨3, ![m0, m1, 2]⟩ w) (a : Fin 2) :
    (pointDims n0 n1 m0 m1 wf).start j idx a = (idx (pointIdx j a)).toInt := by
  unfold ScatterDims.start
  match a with
  | ⟨0, _⟩ =>
    rw [dif_pos (show ((⟨0, by decide⟩ : Fin 2)) ∈ ([0, 1] : List (Fin 2)) by decide)]
    congr 2
    funext b; refine Fin.ext ?_
    match b with
    | ⟨0, _⟩ => rfl
    | ⟨1, _⟩ => rfl
    | ⟨2, _⟩ => rfl
  | ⟨1, _⟩ =>
    rw [dif_pos (show ((⟨1, by decide⟩ : Fin 2)) ∈ ([0, 1] : List (Fin 2)) by decide)]
    congr 2
    funext b; refine Fin.ext ?_
    match b with
    | ⟨0, _⟩ => rfl
    | ⟨1, _⟩ => rfl
    | ⟨2, _⟩ => rfl

theorem pointDims_window {n0 n1 m0 m1 : Nat}
    (wf : ScatterDims.WF ⟨2, ![n0, n1]⟩ ⟨3, ![m0, m1, 2]⟩ ⟨2, ![m0, m1]⟩ [] [0, 1] [0, 1] 2)
    (j : (⟨2, ![m0, m1]⟩ : Shape).Idx) (a : Fin 2) :
    (pointDims n0 n1 m0 m1 wf).window j a = 0 := by
  unfold ScatterDims.window
  rw [dif_neg]
  show a ∉ (List.finRange 2).filter (· ∉ ([0, 1] : List (Fin 2)))
  revert a; decide

/-- A point scatter's update `j` lands at `i` exactly when its two start coordinates, read signed off the index array,
    are `i`'s coordinates; it is dropped when either is outside the operand. -/
theorem pointDims_resultIdx_iff {n0 n1 m0 m1 w : Nat}
    (wf : ScatterDims.WF ⟨2, ![n0, n1]⟩ ⟨3, ![m0, m1, 2]⟩ ⟨2, ![m0, m1]⟩ [] [0, 1] [0, 1] 2)
    (j : (⟨2, ![m0, m1]⟩ : Shape).Idx) (idx : IVec ⟨3, ![m0, m1, 2]⟩ w) (i : (⟨2, ![n0, n1]⟩ : Shape).Idx) :
    (pointDims n0 n1 m0 m1 wf).resultIdx? j idx = some i ↔
      (idx (pointIdx j 0)).toInt = ((i 0).val : Int) ∧ (idx (pointIdx j 1)).toInt = ((i 1).val : Int) := by
  have hs : ∀ a : Fin 2, (pointDims n0 n1 m0 m1 wf).start j idx a + ((pointDims n0 n1 m0 m1 wf).window j a : Int)
      = (idx (pointIdx j a)).toInt := fun a => by
    rw [pointDims_start, pointDims_window]; simp
  have h0 := idx2_lt0 i
  have h1 := idx2_lt1 i
  unfold ScatterDims.resultIdx?
  split
  · rename_i h
    have g0 := h (0 : Fin 2)
    have g1 := h (1 : Fin 2)
    rw [hs] at g0 g1
    change _ ∧ _ < (n0 : Int) at g0
    change _ ∧ _ < (n1 : Int) at g1
    rw [Option.some.injEq]
    constructor
    · intro e
      have e0 := congrArg (fun f => (f (0 : Fin 2)).val) e
      have e1 := congrArg (fun f => (f (1 : Fin 2)).val) e
      simp only [hs] at e0 e1
      change _ = (i 0).val at e0
      change _ = (i 1).val at e1
      omega
    · rintro ⟨e0, e1⟩
      funext a
      match a with
      | ⟨0, _⟩ => refine Fin.ext ?_; show ((pointDims n0 n1 m0 m1 wf).start j idx ⟨0, _⟩ + _).toNat = (i 0).val; rw [hs]; show (idx (pointIdx j 0)).toInt.toNat = (i 0).val; omega
      | ⟨1, _⟩ => refine Fin.ext ?_; show ((pointDims n0 n1 m0 m1 wf).start j idx ⟨1, _⟩ + _).toNat = (i 1).val; rw [hs]; show (idx (pointIdx j 1)).toInt.toNat = (i 1).val; omega
  · rename_i h
    constructor
    · intro e; cases e
    · rintro ⟨e0, e1⟩
      exfalso; apply h
      intro a
      rw [hs]
      match a with
      | ⟨0, _⟩ => show (0 : Int) ≤ (idx (pointIdx j 0)).toInt ∧ (idx (pointIdx j 0)).toInt < (n0 : Int); omega
      | ⟨1, _⟩ => show (0 : Int) ≤ (idx (pointIdx j 1)).toInt ∧ (idx (pointIdx j 1)).toInt < (n1 : Int); omega

/-- The negative-index wrap, select (x < 0) (x + n) x, leaves a word that is not negative alone. -/
theorem select_slt_zero_of_nonneg (x y : BitVec 32) (hx : 0 ≤ x.toInt) :
    Scalar.select (IntOp.cmpi .slt x 0#32) y x = x := by
  have h : x.slt 0#32 = false := by
    simp only [BitVec.slt, BitVec.toInt_zero, decide_eq_false_iff_not]; omega
  show (if BitVec.ofBool (x.slt 0#32) = 1 then y else x) = x
  rw [h]; rfl

/-- Component 0 of the index array at update `j` is `j`'s batch coordinate. -/
theorem indexArr_zero (t : (⟨Cert.ReferenceIdeal.S16x1x512x512, .i32⟩ : BufTy).Contents (Elt Ideal))
    (j : Cert.ReferenceIdeal.S16x262144.Idx) :
    Cert.ReferenceIdeal.Read.val_main_v31 (F := Ideal) t (pointIdx j 0) = BitVec.ofNat 32 (j 0).val := by
  unfold Cert.ReferenceIdeal.Read.val_main_v31
  generalize Cert.ReferenceIdeal.Read.val_main_v30 (F := Ideal) t = y1
  rw [concatenate_pair_apply_left (t := S16x262144x2) (s₁ := S16x262144x1) (s₂ := S16x262144x1) 2
    (Read.val_main_v29 (F := Ideal)) y1 concatenates_S16x262144x1_S16x262144x1_S16x262144x2_d2 (pointIdx j 0) rfl (takeIdx j)
    (fun a => match a with | ⟨0, _⟩ => rfl | ⟨1, _⟩ => rfl | ⟨2, _⟩ => rfl)]
  rw [Read.val_main_v29_apply, Read.val_main_v28_apply, Read.val_main_v22_apply, Read.val_main_v19_apply,
    Read.val_main_v18_apply, Read.val_main_c_apply, Read.val_main_v16_apply, Read.val_main_v15_apply]
  exact select_slt_zero_of_nonneg _ _ (by
    rw [StableHlo.Predicate.toInt_ofNat_small _ (by have := idx2_lt0 j; show (j 0).val < 2 ^ 31; omega)]
    exact Int.natCast_nonneg _)

/-- Component 1 of the index array at update `j` is the label at `j`'s pixel, when that label is not negative. -/
theorem indexArr_one (t : (⟨Cert.ReferenceIdeal.S16x1x512x512, .i32⟩ : BufTy).Contents (Elt Ideal))
    (hr : ∀ i, 0 ≤ (t i).toInt ∧ (t i).toInt < 21) (j : Cert.ReferenceIdeal.S16x262144.Idx) :
    Cert.ReferenceIdeal.Read.val_main_v31 (F := Ideal) t (pointIdx j 1) = t (Read.idx_main_v14 j) := by
  unfold Cert.ReferenceIdeal.Read.val_main_v31
  generalize Cert.ReferenceIdeal.Read.val_main_v29 (F := Ideal) = y0
  rw [concatenate_pair_apply_right (t := S16x262144x2) (s₁ := S16x262144x1) (s₂ := S16x262144x1) 2
    y0 (Read.val_main_v30 (F := Ideal) t) concatenates_S16x262144x1_S16x262144x1_S16x262144x2_d2 (pointIdx j 1) rfl rfl (takeIdx j)
    (fun a => match a with | ⟨0, _⟩ => fun _ => rfl | ⟨1, _⟩ => fun _ => rfl | ⟨2, _⟩ => fun h => absurd rfl h)
    rfl]
  rw [Read.val_main_v30_apply, Read.val_main_v27_apply, Read.val_main_v24_apply, Read.val_main_v23_apply,
    Read.val_main_c_6_apply, Read.val_main_v14_apply]
  have e : Read.idx_main_v14 (Read.idx_main_v30 (takeIdx j)) = Read.idx_main_v14 j := by
    funext a; match a with | ⟨0, _⟩ => rfl | ⟨1, _⟩ => rfl | ⟨2, _⟩ => rfl | ⟨3, _⟩ => rfl
  rw [e]
  exact select_slt_zero_of_nonneg _ _ (hr _).1

/-- A position in a row of 512 · 512 pixels is its (row, column) pair. -/
def pixEquiv : Fin 262144 ≃ Fin 512 × Fin 512 where
  toFun p := (⟨p.val / 512, by have := p.isLt; omega⟩, ⟨p.val % 512, by omega⟩)
  invFun x := ⟨x.1.val * 512 + x.2.val, by have := x.1.isLt; have := x.2.isLt; omega⟩
  left_inv p := by refine Fin.ext ?_; show p.val / 512 * 512 + p.val % 512 = p.val; omega
  right_inv x := by
    have h1 := x.1.isLt
    have h2 := x.2.isLt
    refine Prod.ext (Fin.ext ?_) (Fin.ext ?_)
    · show (x.1.val * 512 + x.2.val) / 512 = x.1.val; omega
    · show (x.1.val * 512 + x.2.val) % 512 = x.2.val; omega

/-- A word in [0, 21) is the word of a class `c` exactly when it reads `c` as a signed integer. -/
theorem toInt_eq_class_iff (x : BitVec 32) (c : Fin 21) : x.toInt = (c.val : Int) ↔ x = BitVec.ofNat 32 c.val := by
  have hc : (BitVec.ofNat 32 c.val).toInt = (c.val : Int) :=
    StableHlo.Predicate.toInt_ofNat_small _ (by have := c.isLt; omega)
  constructor
  · intro h; exact BitVec.eq_of_toInt_eq (h.trans hc.symm)
  · intro h; rw [h, hc]

/-- The reference's scatter-add (stage `main_v33`), read at (b, c), on labels in range. -/
theorem ref_labelCount (t : (⟨Cert.ReferenceIdeal.S16x1x512x512, .i32⟩ : BufTy).Contents (Elt Ideal))
    (hr : ∀ i, 0 ≤ (t i).toInt ∧ (t i).toInt < 21) (b : Fin 16) (c : Fin 21) :
    Cert.ReferenceIdeal.Read.val_main_v33 (F := Ideal) t (ix2 b c) = labelCount t b c := by
  -- which updates land at (b, c): those of batch entry b whose pixel is labelled c
  have hidx : ∀ j : Cert.ReferenceIdeal.S16x262144.Idx,
      scatter_S16x21_S16x262144x2_S16x262144_n_01_01_2.resultIdx? j (Read.val_main_v31 (F := Ideal) t) = some (ix2 b c) ↔
        ((j 0).val = b.val ∧ t (Read.idx_main_v14 j) = BitVec.ofNat 32 c.val) := fun j => by
    have hd : scatter_S16x21_S16x262144x2_S16x262144_n_01_01_2
        = pointDims 16 21 16 262144 scatter_S16x21_S16x262144x2_S16x262144_n_01_01_2_wf := rfl
    rw [hd, pointDims_resultIdx_iff, indexArr_zero, indexArr_one t hr,
      StableHlo.Predicate.toInt_ofNat_small _ (by have := idx2_lt0 j; show (j 0).val < 2 ^ 31; omega)]
    refine and_congr ?_ (toInt_eq_class_iff _ c)
    show ((j 0).val : Int) = (b.val : Int) ↔ (j 0).val = b.val
    exact Nat.cast_inj
  unfold Cert.ReferenceIdeal.Read.val_main_v33
  simp only [Host.scatterAdd, Ideal.hostScatterAdd_def]
  unfold Ideal.hostScatterAdd
  rw [Read.val_main_v17_apply, Read.val_main_cst_4_apply, Ideal.ofBits_def, Ideal.ofBits_zero_f32, zero_add,
    Finset.sum_filter]
  refine (Finset.sum_congr rfl fun j _ => (?_ : _ = if ((j 0).val = b.val ∧ t (Read.idx_main_v14 j) = BitVec.ofNat 32 c.val)
    then (1 : EReal) else 0)).trans ?_
  · rw [Read.val_main_v32_apply, Read.val_main_cst_8_apply, Ideal.ofBits_def, Ideal.ofBits_one_f32]
    exact if_congr (hidx j) rfl rfl
  rw [sum_idx2, Finset.sum_eq_single b]
  · unfold labelCount
    rw [← Equiv.sum_comp pixEquiv.symm, Fintype.sum_prod_type]
    refine Finset.sum_congr rfl fun h _ => Finset.sum_congr rfl fun w _ => ?_
    have e : Read.idx_main_v14 (ix2 b (pixEquiv.symm (h, w))) = ix4 b 0 h w := by
      have hb := b.isLt
      have hh := h.isLt
      have hw := w.isLt
      funext a
      match a with
      | ⟨0, _⟩ => exact Fin.ext (show (b.val * 262144 + (h.val * 512 + w.val)) / 262144 = b.val by omega)
      | ⟨1, _⟩ => rfl
      | ⟨2, _⟩ => exact Fin.ext (show (b.val * 262144 + (h.val * 512 + w.val)) / 512 % 512 = h.val by omega)
      | ⟨3, _⟩ => exact Fin.ext (show (b.val * 262144 + (h.val * 512 + w.val)) % 512 = w.val by omega)
    rw [e]
    exact if_congr ⟨fun h' => h'.2, fun h' => ⟨rfl, h'⟩⟩ rfl rfl
  · intro a _ hab
    refine Finset.sum_eq_zero fun p _ => if_neg fun h' => hab (Fin.ext h'.1)
  · intro hb; exact absurd (Finset.mem_univ b) hb

end Cert.HistLoss

end
-- ==== Proof.lean ====
/-
  The histogram loss: a Pallas kernel against its jnp reference, over the extended reals.

  Both programs compute, from logits x : [16, 21, 512, 512] and integer labels t : [16, 1, 512, 512],
      loss = (Σ_{b,k} | C(b,k) / 262144 − S(b,k) / 262144 |) / 16,
  where S(b,k) is the softmax probability of class k summed over the image of batch entry b and C(b,k) the number of
  pixels of that image labelled k.
  * The kernel visits the image tile by tile (64 × 128 pixels, 8 batch entries at a time), accumulating
    e^{x_k} · (1 / Σ_{k'} e^{x_{k'}}) and the indicator [t = k] into two [8, 21] blocks that are zeroed at a batch
    block's first tile and written back after its last; the sums over the 32 tiles are the sums over the image.
  * The reference subtracts the channel maximum before exponentiating and divides by the channel sum; on real logits
    the shift cancels, and e / s = e · (1 / s) for the positive real s. Its histogram is a scatter-add of ones at
    (b, t); labels are class indices in [0, 21), so no index is negative (jnp would wrap a negative label to t + 21)
    and every update lands in the [16, 21] array: each entry counts the pixels carrying its label.
  The precondition is: every logit finite, every label in [0, 21). The three frames are the generated ones (the
  reference's is its run with the result dropped); the ideal pass rewrote nothing, so `preserves` is `True`.
-/
import proofs.«410221_j10393820857111_3_alg».proof.Defs
import proofs.«410221_j10393820857111_3_alg».proof.Proof.Gen.Kernel
import proofs.«410221_j10393820857111_3_alg».proof.Proof.Gen.Kernel.Skeleton
import proofs.«410221_j10393820857111_3_alg».proof.Proof.Gen.Kernel.Launch
import proofs.«410221_j10393820857111_3_alg».proof.Proof.Gen.Kernel.Points
import proofs.«410221_j10393820857111_3_alg».proof.Proof.Gen.Kernel.Frame
import proofs.«410221_j10393820857111_3_alg».proof.Proof.Gen.KernelIdeal
import proofs.«410221_j10393820857111_3_alg».proof.Proof.Gen.KernelIdeal.Skeleton
import proofs.«410221_j10393820857111_3_alg».proof.Proof.Gen.KernelIdeal.Launch
import proofs.«410221_j10393820857111_3_alg».proof.Proof.Gen.KernelIdeal.Points
import proofs.«410221_j10393820857111_3_alg».proof.Proof.Gen.KernelIdeal.Frame
import proofs.«410221_j10393820857111_3_alg».proof.Proof.Gen.ReferenceIdeal
import proofs.«410221_j10393820857111_3_alg».proof.Proof.Gen.ReferenceIdeal.Run
import proofs.«410221_j10393820857111_3_alg».proof.Proof.Gen.ReferenceIdeal.Read
import proofs.«410221_j10393820857111_3_alg».proof.Proof.Gen.Pre_finite_inputs
import proofs.«410221_j10393820857111_3_alg».proof.Proof.KernelRun
import proofs.«410221_j10393820857111_3_alg».proof.Proof.LabelRange
import proofs.«410221_j10393820857111_3_alg».proof.Proof.SoftmaxSum
import proofs.«410221_j10393820857111_3_alg».proof.Proof.ScatterCount
import Idealize.ShloMosaic.Adequacy
import Idealize.ShloMosaic.Init

noncomputable section

namespace Cert.Proof

open Idealize.ShloMosaic Idealize.SL.Sem Idealize.ShloMosaic.ValueIdx Cert.HistLoss

/-- The reference's result is the same chain of host operations — divide both statistics by the pixel count, absolute
    difference, total, divide by the batch size — applied to its own two statistics. -/
theorem ref_result (x : (⟨Cert.ReferenceIdeal.S16x21x512x512, .f32⟩ : BufTy).Contents (Elt Ideal))
    (t : (⟨Cert.ReferenceIdeal.S16x1x512x512, .i32⟩ : BufTy).Contents (Elt Ideal)) :
    Cert.ReferenceIdeal.Read.val_main_v39 (F := Ideal) x t
      = Cert.HistLoss.Kernel.loss (Cert.ReferenceIdeal.Read.val_main_v11 (F := Ideal) x)
          (Cert.ReferenceIdeal.Read.val_main_v33 (F := Ideal) t) := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `loss` of the softmax mass and the label count of the same arguments. -/
theorem algebraic : Cert.algebraic_KernelIdeal_ReferenceIdeal := by
  intro m ρ m' ρ' hpre hagree
  refine ⟨fun c => Cert.HistLoss.Kernel.loss
      (probArr (m ((c.tc : Thread Cert.KernelIdeal.nD Cert.KernelIdeal.τ).loc Cert.KernelIdeal.main_arg0)))
      (countArr (m ((c.tc : Thread Cert.KernelIdeal.nD Cert.KernelIdeal.τ).loc Cert.KernelIdeal.main_arg1))),
    Cert.HistLoss.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hrange⟩ := Cert.HistLoss.pre_read _ _ (hpre c)
  rw [Cert.ReferenceIdeal.Read.val_main_v39_eq, ref_result, (hagree c).1, (hagree c).2]
  have e1 : Cert.ReferenceIdeal.Read.val_main_v11 (F := Ideal)
      (m ((c.tc : Thread Cert.KernelIdeal.nD Cert.KernelIdeal.τ).loc Cert.KernelIdeal.main_arg0))
      = probArr (m ((c.tc : Thread Cert.KernelIdeal.nD Cert.KernelIdeal.τ).loc Cert.KernelIdeal.main_arg0)) :=
    funext fun j => by rw [eq_ix2 j]; exact ref_probSum _ hfin _ _
  have e2 : Cert.ReferenceIdeal.Read.val_main_v33 (F := Ideal)
      (m ((c.tc : Thread Cert.KernelIdeal.nD Cert.KernelIdeal.τ).loc Cert.KernelIdeal.main_arg1))
      = countArr (m ((c.tc : Thread Cert.KernelIdeal.nD Cert.KernelIdeal.τ).loc Cert.KernelIdeal.main_arg1)) :=
    funext fun j => by rw [eq_ix2 j]; exact ref_labelCount _ hrange _ _
  rw [e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
